-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S4096x16 : Shape := ⟨2, ![4096, 16]⟩
abbrev S4096x32 : Shape := ⟨2, ![4096, 32]⟩
abbrev S4096x32x128 : Shape := ⟨3, ![4096, 32, 128]⟩
abbrev S4096 : Shape := ⟨1, ![4096]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x32 : S_.BroadcastsInDim S4096x32 (![] : Fin 0 → Fin S4096x32.rank)
  reducesTo_S4096x32_S_d0_1 : S4096x32.ReducesTo [0, 1] S_
  bcast_S_S4096x32x128 : S_.BroadcastsInDim S4096x32x128 (![] : Fin 0 → Fin S4096x32x128.rank)
  reducesTo_S4096x32x128_S_d0_1_2 : S4096x32x128.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : IVec S4096x32x128 32) (main_v13 : IVec S_ 1) (main_v16 : IVec S4096x32x128 1) : IVec S_ 1 :=
  let main_c_5 : IVec S_ 1 := constantI S_ 1 1#1
  let main_v17 : IVec S_ 1 := (fun x v => Host.reduce IntOp.andi x v reducesTo_S4096x32x128_S_d0_1_2 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_c_8 : IVec S_ 32 := constantI S_ 32 0#32
  let main_v24 : IVec S4096x32x128 32 := broadcastInDim S4096x32x128 ![] bcast_S_S4096x32x128 main_c_8
  let main_v25 : IVec S4096x32x128 1 := cmpi .sge main_arg5 main_v24
  let main_c_9 : IVec S_ 32 := constantI S_ 32 16#32
  let main_v26 : IVec S4096x32x128 32 := broadcastInDim S4096x32x128 ![] bcast_S_S4096x32x128 main_c_9
  let main_v27 : IVec S4096x32x128 1 := cmpi .slt main_arg5 main_v26
  let main_v28 : IVec S4096x32x128 1 := andi main_v25 main_v27
  let main_c_10 : IVec S_ 1 := constantI S_ 1 1#1
  let main_v29 : IVec S_ 1 := (fun x v => Host.reduce IntOp.andi x v reducesTo_S4096x32x128_S_d0_1_2 h_S_) main_v28 main_c_10
  let main_v30 : IVec S_ 1 := andi main_v23 main_v29
  main_v30

def fn {F : FTy → Type} [FloatOps F] (main_arg0 : FVec F S16x4096 .f32) (main_arg1 : FVec F S4096x16 .f32) (main_arg2 : FVec F S4096x32 .f32) (main_arg3 : FVec F S4096x32x128 .f32) (main_arg4 : FVec F S4096 .f32) (main_arg5 : IVec S4096x32x128 32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096x32x128 .f32 := Host.absf main_arg3
  let main_cst_4 : FVec F S_ .f32 := constant S_ .f32 0x7F800000#32
  let main_v15 : FVec F S4096x32x128 .f32 := broadcastInDim S4096x32x128 ![] bcast_S_S4096x32x128 main_cst_4
  let main_v16 : IVec S4096x32x128 1 := cmpf .olt main_v14 main_v15
  fn_part1 (F := F) main_arg4 main_arg5 main_v13 main_v16
-- ==== Kernel.lean ====
abbrev S16x4096 : Shape := ⟨2, ![16, 4096]⟩
abbrev S4096x16 : Shape := ⟨2, ![4096, 16]⟩
abbrev S4096x32 : Shape := ⟨2, ![4096, 32]⟩
abbrev S4096x32x128 : Shape := ⟨3, ![4096, 32, 128]⟩
abbrev S4096 : Shape := ⟨1, ![4096]⟩
abbrev S1x4096 : Shape := ⟨2, ![1, 4096]⟩
abbrev S256x16 : Shape := ⟨2, ![256, 16]⟩
abbrev S256x32 : Shape := ⟨2, ![256, 32]⟩
abbrev S256x32x128 : Shape := ⟨3, ![256, 32, 128]⟩
abbrev S1x256 : Shape := ⟨2, ![1, 256]⟩
abbrev S16x256 : Shape := ⟨2, ![16, 256]⟩
abbrev S256x1 : Shape := ⟨2, ![256, 1]⟩
abbrev S256 : Shape := ⟨1, ![256]⟩
abbrev S256x1x1 : Shape := ⟨3, ![256, 1, 1]⟩
abbrev S256x32x1 : Shape := ⟨3, ![256, 32, 1]⟩
abbrev S16x128 : Shape := ⟨2, ![16, 128]⟩
abbrev S256x1x128 : Shape := ⟨3, ![256, 1, 128]⟩
abbrev S256x128 : Shape := ⟨2, ![256, 128]⟩

abbrev nBuf : Space → Nat
  | .hbm => 8
  | .vmem => 13
  | .smem => 0
  | _ => 0

abbrev bufTy : (tb : Table) → Fin (tcTables nBuf tb) → BufTy
  | .hbm, ⟨0, _⟩ => ⟨S16x4096, .f32⟩
  | .hbm, ⟨1, _⟩ => ⟨S4096x16, .f32⟩
  | .hbm, ⟨2, _⟩ => ⟨S4096x32, .f32⟩
  | .hbm, ⟨3, _⟩ => ⟨S4096x32x128, .f32⟩
  | .hbm, ⟨4, _⟩ => ⟨S4096, .f32⟩
  | .hbm, ⟨5, _⟩ => ⟨S4096x32x128, .i32⟩
  | .hbm, ⟨6, _⟩ => ⟨S1x4096, .f32⟩
  | .hbm, ⟨7, _⟩ => ⟨S16x4096, .f32⟩
  | .local _ .vmem, ⟨0, _⟩ => ⟨S256x16, .f32⟩
  | .local _ .vmem, ⟨1, _⟩ => ⟨S256x16, .f32⟩
  | .local _ .vmem, ⟨2, _⟩ => ⟨S256x32, .f32⟩
  | .local _ .vmem, ⟨3, _⟩ => ⟨S256x32, .f32⟩
  | .local _ .vmem, ⟨4, _⟩ => ⟨S256x32x128, .f32⟩
  | .local _ .vmem, ⟨5, _⟩ => ⟨S256x32x128, .f32⟩
  | .local _ .vmem, ⟨6, _⟩ => ⟨S256x32x128, .i32⟩
  | .local _ .vmem, ⟨7, _⟩ => ⟨S256x32x128, .i32⟩
  | .local _ .vmem, ⟨8, _⟩ => ⟨S16x4096, .f32⟩
  | .local _ .vmem, ⟨9, _⟩ => ⟨S1x256, .f32⟩
  | .local _ .vmem, ⟨10, _⟩ => ⟨S1x256, .f32⟩
  | .local _ .vmem, ⟨11, _⟩ => ⟨S16x256, .f32⟩
  | .local _ .vmem, ⟨12, _⟩ => ⟨S16x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4096_S1x4096 : S4096.ShapeCasts S1x4096
  inb_S256x32x128_S256x32x128_0_0_0 : ∀ a, (![0, 0, 0] : Fin 3 → Nat) a + S256x32x128.size a ≤ S256x32x128.size a
  h_S256x32x128 : 0 < S256x32x128.numel
  inb_S256x16_S256x16_0_0 : ∀ a, (![0, 0] : Fin 2 → Nat) a + S256x16.size a ≤ S256x16.size a
  h_S256x16 : 0 < S256x16.numel
  inb_S256x32_S256x32_0_0 : ∀ a, (![0, 0] : Fin 2 → Nat) a + S256x32.size a ≤ S256x32.size a
  h_S256x32 : 0 < S256x32.numel
  slices_S256x16_o0_0_S256x1 : S256x16.Slices ![0, 0] S256x1
  shapeCasts_S256x1_S256 : S256x1.ShapeCasts S256
  shapeCasts_S256_S256x1x1 : S256.ShapeCasts S256x1x1
  shapeCasts_S256x1x1_S256x1x1 : S256x1x1.ShapeCasts S256x1x1
  broadcasts_S256x1x1_S256x32x128 : S256x1x1.Broadcasts S256x32x128
  slices_S256x16_o0_1_S256x1 : S256x16.Slices ![0, 1] S256x1
  slices_S256x16_o0_2_S256x1 : S256x16.Slices ![0, 2] S256x1
  slices_S256x16_o0_3_S256x1 : S256x16.Slices ![0, 3] S256x1
  slices_S256x16_o0_4_S256x1 : S256x16.Slices ![0, 4] S256x1
  slices_S256x16_o0_5_S256x1 : S256x16.Slices ![0, 5] S256x1
  slices_S256x16_o0_6_S256x1 : S256x16.Slices ![0, 6] S256x1
  slices_S256x16_o0_7_S256x1 : S256x16.Slices ![0, 7] S256x1
  slices_S256x16_o0_8_S256x1 : S256x16.Slices ![0, 8] S256x1
  slices_S256x16_o0_9_S256x1 : S256x16.Slices ![0, 9] S256x1
  slices_S256x16_o0_10_S256x1 : S256x16.Slices ![0, 10] S256x1
  slices_S256x16_o0_11_S256x1 : S256x16.Slices ![0, 11] S256x1
  slices_S256x16_o0_12_S256x1 : S256x16.Slices ![0, 12] S256x1
  slices_S256x16_o0_13_S256x1 : S256x16.Slices ![0, 13] S256x1
  slices_S256x16_o0_14_S256x1 : S256x16.Slices ![0, 14] S256x1
  slices_S256x16_o0_15_S256x1 : S256x16.Slices ![0, 15] S256x1
  shapeCasts_S256x32_S256x32x1 : S256x32.ShapeCasts S256x32x1
  broadcasts_S256x32x1_S256x32x128 : S256x32x1.Broadcasts S256x32x128
  bitsLt_bf16_f32 : FTy.bits .bf16 < FTy.bits .f32
  inb_S16x4096_S16x128_0_0 : ∀ a, (![0, 0] : Fin 2 → Nat) a + S16x128.size a ≤ S16x4096.size a
  h_S16x128 : 0 < S16x128.numel
  slices_S256x32x128_o0_0_0_S256x1x128 : S256x32x128.Slices ![0, 0, 0] S256x1x128
  shapeCasts_S256x1x128_S256x128 : S256x1x128.ShapeCasts S256x128
  inb_S16x4096_S16x128_0_128 : ∀ a, (![0, 128] : Fin 2 → Nat) a + S16x128.size a ≤ S16x4096.size a
  slices_S256x32x128_o0_1_0_S256x1x128 : S256x32x128.Slices ![0, 1, 0] S256x1x128
  inb_S16x4096_S16x128_0_256 : ∀ a, (![0, 256] : Fin 2 → Nat) a + S16x128.size a ≤ S16x4096.size a
  slices_S256x32x128_o0_2_0_S256x1x128 : S256x32x128.Slices ![0, 2, 0] S256x1x128
  inb_S16x4096_S16x128_0_384 : ∀ a, (![0, 384] : Fin 2 → Nat) a + S16x128.size a ≤ S16x4096.size a
  slices_S256x32x128_o0_3_0_S256x1x128 : S256x32x128.Slices ![0, 3, 0] S256x1x128
  inb_S16x4096_S16x128_0_512 : ∀ a, (![0, 512] : Fin 2 → Nat) a + S16x128.size a ≤ S16x4096.size a
  slices_S256x32x128_o0_4_0_S256x1x128 : S256x32x128.Slices ![0, 4, 0] S256x1x128
  inb_S16x4096_S16x128_0_640 : ∀ a, (![0, 640] : Fin 2 → Nat) a + S16x128.size a ≤ S16x4096.size a
  slices_S256x32x128_o0_5_0_S256x1x128 : S256x32x128.Slices ![0, 5, 0] S256x1x128
  inb_S16x4096_S16x128_0_768 : ∀ a, (![0, 768] : Fin 2 → Nat) a + S16x128.size a ≤ S16x4096.size a
  slices_S256x32x128_o0_6_0_S256x1x128 : S256x32x128.Slices ![0, 6, 0] S256x1x128
  inb_S16x4096_S16x128_0_896 : ∀ a, (![0, 896] : Fin 2 → Nat) a + S16x128.size a ≤ S16x4096.size a
  slices_S256x32x128_o0_7_0_S256x1x128 : S256x32x128.Slices ![0, 7, 0] S256x1x128
  inb_S16x4096_S16x128_0_1024 : ∀ a, (![0, 1024] : Fin 2 → Nat) a + S16x128.size a ≤ S16x4096.size a
  slices_S256x32x128_o0_8_0_S256x1x128 : S256x32x128.Slices ![0, 8, 0] S256x1x128
  inb_S16x4096_S16x128_0_1152 : ∀ a, (![0, 1152] : Fin 2 → Nat) a + S16x128.size a ≤ S16x4096.size a
  slices_S256x32x128_o0_9_0_S256x1x128 : S256x32x128.Slices ![0, 9, 0] S256x1x128
  inb_S16x4096_S16x128_0_1280 : ∀ a, (![0, 1280] : Fin 2 → Nat) a + S16x128.size a ≤ S16x4096.size a
  slices_S256x32x128_o0_10_0_S256x1x128 : S256x32x128.Slices ![0, 10, 0] S256x1x128
  inb_S16x4096_S16x128_0_1408 : ∀ a, (![0, 1408] : Fin 2 → Nat) a + S16x128.size a ≤ S16x4096.size a
  slices_S256x32x128_o0_11_0_S256x1x128 : S256x32x128.Slices ![0, 11, 0] S256x1x128
  inb_S16x4096_S16x128_0_1536 : ∀ a, (![0, 1536] : Fin 2 → Nat) a + S16x128.size a ≤ S16x4096.size a
  slices_S256x32x128_o0_12_0_S256x1x128 : S256x32x128.Slices ![0, 12, 0] S256x1x128
  inb_S16x4096_S16x128_0_1664 : ∀ a, (![0, 1664] : Fin 2 → Nat) a + S16x128.size a ≤ S16x4096.size a
  slices_S256x32x128_o0_13_0_S256x1x128 : S256x32x128.Slices ![0, 13, 0] S256x1x128
  inb_S16x4096_S16x128_0_1792 : ∀ a, (![0, 1792] : Fin 2 → Nat) a + S16x128.size a ≤ S16x4096.size a
  slices_S256x32x128_o0_14_0_S256x1x128 : S256x32x128.Slices ![0, 14, 0] S256x1x128
  inb_S16x4096_S16x128_0_1920 : ∀ a, (![0, 1920] : Fin 2 → Nat) a + S16x128.size a ≤ S16x4096.size a
  slices_S256x32x128_o0_15_0_S256x1x128 : S256x32x128.Slices ![0, 15, 0] S256x1x128
  inb_S16x4096_S16x128_0_2048 : ∀ a, (![0, 2048] : Fin 2 → Nat) a + S16x128.size a ≤ S16x4096.size a
  slices_S256x32x128_o0_16_0_S256x1x128 : S256x32x128.Slices ![0, 16, 0] S256x1x128
  inb_S16x4096_S16x128_0_2176 : ∀ a, (![0, 2176] : Fin 2 → Nat) a + S16x128.size a ≤ S16x4096.size a
  slices_S256x32x128_o0_17_0_S256x1x128 : S256x32x128.Slices ![0, 17, 0] S256x1x128
  inb_S16x4096_S16x128_0_2304 : ∀ a, (![0, 2304] : Fin 2 → Nat) a + S16x128.size a ≤ S16x4096.size a
  slices_S256x32x128_o0_18_0_S256x1x128 : S256x32x128.Slices ![0, 18, 0] S256x1x128
  inb_S16x4096_S16x128_0_2432 : ∀ a, (![0, 2432] : Fin 2 → Nat) a + S16x128.size a ≤ S16x4096.size a
  slices_S256x32x128_o0_19_0_S256x1x128 : S256x32x128.Slices ![0, 19, 0] S256x1x128
  inb_S16x4096_S16x128_0_2560 : ∀ a, (![0, 2560] : Fin 2 → Nat) a + S16x128.size a ≤ S16x4096.size a
  slices_S256x32x128_o0_20_0_S256x1x128 : S256x32x128.Slices ![0, 20, 0] S256x1x128
  inb_S16x4096_S16x128_0_2688 : ∀ a, (![0, 2688] : Fin 2 → Nat) a + S16x128.size a ≤ S16x4096.size a
  slices_S256x32x128_o0_21_0_S256x1x128 : S256x32x128.Slices ![0, 21, 0] S256x1x128
  inb_S16x4096_S16x128_0_2816 : ∀ a, (![0, 2816] : Fin 2 → Nat) a + S16x128.size a ≤ S16x4096.size a
  slices_S256x32x128_o0_22_0_S256x1x128 : S256x32x128.Slices ![0, 22, 0] S256x1x128
  inb_S16x4096_S16x128_0_2944 : ∀ a, (![0, 2944] : Fin 2 → Nat) a + S16x128.size a ≤ S16x4096.size a
  slices_S256x32x128_o0_23_0_S256x1x128 : S256x32x128.Slices ![0, 23, 0] S256x1x128
  inb_S16x4096_S16x128_0_3072 : ∀ a, (![0, 3072] : Fin 2 → Nat) a + S16x128.size a ≤ S16x4096.size a
  slices_S256x32x128_o0_24_0_S256x1x128 : S256x32x128.Slices ![0, 24, 0] S256x1x128
  inb_S16x4096_S16x128_0_3200 : ∀ a, (![0, 3200] : Fin 2 → Nat) a + S16x128.size a ≤ S16x4096.size a
  slices_S256x32x128_o0_25_0_S256x1x128 : S256x32x128.Slices ![0, 25, 0] S256x1x128
  inb_S16x4096_S16x128_0_3328 : ∀ a, (![0, 3328] : Fin 2 → Nat) a + S16x128.size a ≤ S16x4096.size a
  slices_S256x32x128_o0_26_0_S256x1x128 : S256x32x128.Slices ![0, 26, 0] S256x1x128
  inb_S16x4096_S16x128_0_3456 : ∀ a, (![0, 3456] : Fin 2 → Nat) a + S16x128.size a ≤ S16x4096.size a
  slices_S256x32x128_o0_27_0_S256x1x128 : S256x32x128.Slices ![0, 27, 0] S256x1x128
  inb_S16x4096_S16x128_0_3584 : ∀ a, (![0, 3584] : Fin 2 → Nat) a + S16x128.size a ≤ S16x4096.size a
  slices_S256x32x128_o0_28_0_S256x1x128 : S256x32x128.Slices ![0, 28, 0] S256x1x128
  inb_S16x4096_S16x128_0_3712 : ∀ a, (![0, 3712] : Fin 2 → Nat) a + S16x128.size a ≤ S16x4096.size a
  slices_S256x32x128_o0_29_0_S256x1x128 : S256x32x128.Slices ![0, 29, 0] S256x1x128
  inb_S16x4096_S16x128_0_3840 : ∀ a, (![0, 3840] : Fin 2 → Nat) a + S16x128.size a ≤ S16x4096.size a
  slices_S256x32x128_o0_30_0_S256x1x128 : S256x32x128.Slices ![0, 30, 0] S256x1x128
  inb_S16x4096_S16x128_0_3968 : ∀ a, (![0, 3968] : Fin 2 → Nat) a + S16x128.size a ≤ S16x4096.size a
  slices_S256x32x128_o0_31_0_S256x1x128 : S256x32x128.Slices ![0, 31, 0] S256x1x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S16x256_S16x256_0_0 : ∀ a, (![0, 0] : Fin 2 → Nat) a + S16x256.size a ≤ S16x256.size a
  h_S16x256 : 0 < S16x256.numel
  dot_S16x128_S256x128_S16x256_1_1_0_0_n_n_wf : DotDims.WF S16x128 S256x128 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16.size a ≤ S4096x16.size a
  hwx0_0 : ∀ i : grid0.Coords, EltTy.bits .f32 = 32 ∨ (Rect.block (s := S4096x16) S256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32x128.size a ≤ S4096x32x128.size a
  hwx0_2 : ∀ i : grid0.Coords, EltTy.bits .f32 = 32 ∨ (Rect.block (s := S4096x32x128) S256x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32x128.size a ≤ S4096x32x128.size a
  hwx0_3 : ∀ i : grid0.Coords, EltTy.bits .i32 = 32 ∨ (Rect.block (s := S4096x32x128) S256x32x128.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x4096.size a ≤ S16x4096.size a
  hwx0_4 : ∀ i : grid0.Coords, EltTy.bits .f32 = 32 ∨ (Rect.block (s := S16x4096) S16x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x4096.size a
  hwx0_5 : ∀ i : grid0.Coords, EltTy.bits .f32 = 32 ∨ (Rect.block (s := S1x4096) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x4096.size a
  hwx0_6 : ∀ i : grid0.Coords, EltTy.bits .f32 = 32 ∨ (Rect.block (s := S16x4096) S16x256.size (cc0_transform_6 i) (hinb0_6 i)).WholeWords (EltTy.packing .f32)

variable [Facts₀]

def dot_S16x128_S256x128_S16x256_1_1_0_0_n_n : DotDims S16x128 S256x128 S16x256 where
  lhsContracting := [1]
  rhsContracting := [1]
  lhsNonContracting := [0]
  rhsNonContracting := [0]
  lhsBatch := []
  rhsBatch := []
  wf := dot_S16x128_S256x128_S16x256_1_1_0_0_n_n_wf

abbrev win0_0 : Pipeline.Window sig grid0 :=
  Pipeline.Window.ofSpec (Memref.whole main_arg1) S256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S16x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S16x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x4096 : Shape := ⟨2, ![16, 4096]⟩
abbrev S4096x16 : Shape := ⟨2, ![4096, 16]⟩
abbrev S4096x32 : Shape := ⟨2, ![4096, 32]⟩
abbrev S4096x32x128 : Shape := ⟨3, ![4096, 32, 128]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S4096x32x1 : Shape := ⟨3, ![4096, 32, 1]⟩
abbrev S32x128x4096 : Shape := ⟨3, ![32, 128, 4096]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x16, .f32⟩
  | .hbm, ⟨2, _⟩ => ⟨S4096x32, .f32⟩
  | .hbm, ⟨3, _⟩ => ⟨S4096x32x128, .f32⟩
  | .hbm, ⟨4, _⟩ => ⟨S4096, .f32⟩
  | .hbm, ⟨5, _⟩ => ⟨S4096x32x128, .i32⟩
  | .hbm, ⟨6, _⟩ => ⟨S4096x4096, .i32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096x1, .i32⟩
  | .hbm, ⟨15, _⟩ => ⟨S1, .i32⟩
  | .hbm, ⟨16, _⟩ => ⟨S_, .i32⟩
  | .hbm, ⟨17, _⟩ => ⟨S4096x4096x1, .i32⟩
  | .hbm, ⟨18, _⟩ => ⟨S4096x4096x1, .i1⟩
  | .hbm, ⟨19, _⟩ => ⟨S1x1x1, .i32⟩
  | .hbm, ⟨20, _⟩ => ⟨S4096x4096x1, .i32⟩
  | .hbm, ⟨21, _⟩ => ⟨S4096x4096x1, .i1⟩
  | .hbm, ⟨22, _⟩ => ⟨S4096x4096x1, .i1⟩
  | .hbm, ⟨23, _⟩ => ⟨S_, .i1⟩
  | .hbm, ⟨24, _⟩ => ⟨S4096x4096, .i1⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x32x128, .f32⟩
  | .hbm, ⟨30, _⟩ => ⟨S4096x32x1, .f32⟩
  | .hbm, ⟨31, _⟩ => ⟨S4096x32x128, .f32⟩
  | .hbm, ⟨32, _⟩ => ⟨S4096x32x128, .f32⟩
  | .hbm, ⟨33, _⟩ => ⟨S4096x32x128, .f32⟩
  | .hbm, ⟨34, _⟩ => ⟨S32x128x4096, .f32⟩
  | .hbm, ⟨35, _⟩ => ⟨S4096x4096, .f32⟩
  | .hbm, ⟨36, _⟩ => ⟨S16x4096, .f32⟩
  | .hbm, ⟨37, _⟩ => ⟨S1x4096, .f32⟩
  | .hbm, ⟨38, _⟩ => ⟨S16x4096, .f32⟩
  | .hbm, ⟨39, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩

abbrev nD : Nat := 1
abbrev τ : Topo := Topo.v7x

variable {F : FTy → Type} [FloatOps F]

class Facts₀ : Prop where
  shapeCasts_S4096x32x128_S4096x4096 : S4096x32x128.ShapeCasts S4096x4096
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  transposes_S4096x32x128_S32x128x4096_1_2_0 : S4096x32x128.Transposes [1, 2, 0] S32x128x4096
  shapeCasts_S32x128x4096_S4096x4096 : S32x128x4096.ShapeCasts S4096x4096
  bcast_S4096_S1x4096_1 : S4096.BroadcastsInDim S1x4096 (![1] : Fin 1 → Fin S1x4096.rank)
  bcast_S1x4096_S16x4096_0_1 : S1x4096.BroadcastsInDim S16x4096 (![0, 1] : Fin 2 → Fin S16x4096.rank)
  gather_S4096x16_S4096x4096x1_S4096x4096_n_1_0_0_1_2_11_wf : GatherDims.WF S4096x16 S4096x4096x1 S4096x4096 [] [1] [0] [1] [0] 2 ![1, 1]
  dot_S16x4096_S4096x4096_S16x4096_1_0_0_1_n_n_wf : DotDims.WF S16x4096 S4096x4096 S16x4096 [1] [0] [0] [1] [] []

variable [Facts₀]

def gather_S4096x16_S4096x4096x1_S4096x4096_n_1_0_0_1_2_11 : GatherDims S4096x16 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x16_S4096x4096x1_S4096x4096_n_1_0_0_1_2_11_wf
def dot_S16x4096_S4096x4096_S16x4096_1_0_0_1_n_n : DotDims S16x4096 S4096x4096 S16x4096 where
  lhsContracting := [1]
  rhsContracting := [0]
  lhsNonContracting := [0]
  rhsNonContracting := [1]
  lhsBatch := []
  rhsBatch := []
  wf := dot_S16x4096_S4096x4096_S16x4096_1_0_0_1_n_n_wf

class Facts : Prop extends Facts₀ where

variable [Facts]
-- ==== Proof.Spec.lean ====
/-
  What both programs compute, written once over the extended reals.

  A 4-bit quantised weight matrix is stored as a table of sixteen levels per output channel `o`, an index word per
  entry `(o, g, k)` (32 groups of 128 along the contracted axis), a scale per `(o, g)` and a residual per entry:
      weight o g k = levels[o, index[o, g, k]] · scale[o, g] + residual[o, g, k].
  The result is the activations contracted against those weights, plus a bias per output channel:
      G b o = (∑ g < 32, ∑ k < 128, x[b, 128·g + k] · weight o g k) + bias[o].
  Summing the contracted axis group by group, or in one run of 4096 positions, is the same finite sum
  (`sum_pos`): the extended reals are a commutative monoid under addition, so no finiteness is needed.
-/
import Idealize.ShloMosaic.PureOps.Ideal
import Idealize.ShloMosaic.Lib.ValueIdx

noncomputable section

namespace Cert.Spec

open Idealize.ShloMosaic Idealize.ShloMosaic.ValueIdx

/-- The level an index word selects among sixteen: its value modulo 16 (for a word in `[0, 16)`, the word). -/
def level (w : BitVec 32) : Fin 16 := ⟨w.toNat % 16, Nat.mod_lt _ (by decide)⟩

theorem level_val_of_lt {w : BitVec 32} (h : w.toNat < 16) : (level w).val = w.toNat := Nat.mod_eq_of_lt h

/-- Position `128·g + k` of the contracted axis: lane `k` of group `g`. -/
def pos (g : Fin 32) (k : Fin 128) : Fin 4096 := ⟨g.val * 128 + k.val, by have := g.isLt; have := k.isLt; omega⟩

/-- The positions of the contracted axis are the pairs (group, lane). -/
def posEquiv : Fin 32 × Fin 128 ≃ Fin 4096 where
  toFun x := pos x.1 x.2
  invFun j := (⟨j.val / 128, by have := j.isLt; omega⟩, ⟨j.val % 128, Nat.mod_lt _ (by decide)⟩)
  left_inv x := by
    obtain ⟨g, k⟩ := x
    have := g.isLt; have := k.isLt
    refine Prod.ext (Fin.ext ?_) (Fin.ext ?_)
    · show (g.val * 128 + k.val) / 128 = g.val; omega
    · show (g.val * 128 + k.val) % 128 = k.val; omega
  right_inv j := Fin.ext (by show j.val / 128 * 128 + j.val % 128 = j.val; omega)

/-- A sum over the 4096 positions is the sum over the groups of the sums over each group's lanes. -/
theorem sum_pos {M : Type} [AddCommMonoid M] (f : Fin 4096 → M) :
    ∑ j : Fin 4096, f j = ∑ g : Fin 32, ∑ k : Fin 128, f (pos g k) := by
  rw [← Fintype.sum_prod_type' (f := fun g k => f (pos g k))]
  exact (Fintype.sum_equiv posEquiv (fun x => f (pos x.1 x.2)) f (fun _ => rfl)).symm

variable (inp : (⟨2, ![16, 4096]⟩ : Shape).Idx → EReal) (cb : (⟨2, ![4096, 16]⟩ : Shape).Idx → EReal)
  (sc : (⟨2, ![4096, 32]⟩ : Shape).Idx → EReal) (res : (⟨3, ![4096, 32, 128]⟩ : Shape).Idx → EReal)
  (bias : (⟨1, ![4096]⟩ : Shape).Idx → EReal) (idx : (⟨3, ![4096, 32, 128]⟩ : Shape).Idx → BitVec 32)

/-- The dequantised weight of output channel `o` at lane `k` of group `g`. -/
def weight (o : Fin 4096) (g : Fin 32) (k : Fin 128) : EReal :=
  cb (ix2 o (level (idx (ix3 o g k)))) * sc (ix2 o g) + res (ix3 o g k)

/-- Group `g`'s share of the contraction for batch row `b` and output channel `o`. -/
def part (b : Fin 16) (o : Fin 4096) (g : Fin 32) : EReal :=
  ∑ k : Fin 128, inp (ix2 b (pos g k)) * weight cb sc res idx o g k

/-- The result at batch row `b`, output channel `o`. -/
def Gat (b : Fin 16) (o : Fin 4096) : EReal :=
  (∑ g : Fin 32, part inp cb sc res idx b o g) + bias (ix1 o)

/-- The result array. -/
def G : (⟨2, ![16, 4096]⟩ : Shape).Idx → EReal := fun i => Gat inp cb sc res bias idx (i 0) (i 1)

theorem G_ix2 (b : Fin 16) (o : Fin 4096) : G inp cb sc res bias idx (ix2 b o) = Gat inp cb sc res bias idx b o := rfl

end Cert.Spec

end
-- ==== Proof.PreDecode.lean ====
/-
  The index range, read out of the precondition.

  The precondition is a conjunction whose last conjunct says: for every entry `i` of the index array, the word `a5 i`
  satisfies `0 ≤ a5 i` and `a5 i < 16` as signed 32-bit integers. A 32-bit word whose signed value is nonnegative has
  signed value equal to its unsigned value, so the unsigned value is below 16 as well.
-/
import proofs.«415641_j2173253452238_1_alg».proof.Pre_finite_inputs
import Idealize.ShloMosaic.Lib.ReduceAll
import Idealize.ShloMosaic.Lib.ValueIdx

namespace Cert.PreDecode

open Idealize.ShloMosaic Cert.Pre_finite_inputs

/-- The shape of rank 0 has exactly one index. -/
instance : Subsingleton S_.Idx := ⟨fun a b => funext fun d => d.elim0⟩

/-- A 32-bit word whose signed value lies in `[0, 16)` has unsigned value below 16. -/
theorem toNat_lt_of_toInt {w : BitVec 32} (h0 : (0#32).toInt ≤ w.toInt) (h1 : w.toInt < (16#32).toInt) : w.toNat < 16 := by
  have e0 : (0#32).toInt = 0 := by decide
  have e1 : (16#32).toInt = 16 := by decide
  rw [e0] at h0
  rw [e1] at h1
  have hw := w.isLt
  rw [BitVec.toInt_eq_toNat_cond] at h0 h1
  split at h0 <;> omega

/-- Under the precondition every index word, read unsigned, is below 16. -/
theorem idx_lt {F : FTy → Type} [FloatOps F] [Cert.Pre_finite_inputs.Facts]
    (a0 : FVec F S16x4096 .f32) (a1 : FVec F S4096x16 .f32) (a2 : FVec F S4096x32 .f32) (a3 : FVec F S4096x32x128 .f32)
    (a4 : FVec F S4096 .f32) (a5 : IVec S4096x32x128 32)
    (h : Cert.Pre_finite_inputs.fn (F := F) a0 a1 a2 a3 a4 a5 = fun _ => 1#1) (i : S4096x32x128.Idx) :
    (a5 i).toNat < 16 := by
  have h0 := congrFun h ValueIdx.ix0
  unfold Cert.Pre_finite_inputs.fn Cert.Pre_finite_inputs.fn_part1 at h0
  dsimp only at h0
  have hall := (IntOp.andi_eq_one.1 h0).2
  have hi := Host.reduce_andi_all _ _ _ _ _ hall i
  obtain ⟨hge, hlt⟩ := IntOp.andi_eq_one.1 hi
  exact toNat_lt_of_toInt (IntOp.cmpi_sge.1 hge) (IntOp.cmpi_slt.1 hlt)

end Cert.PreDecode
-- ==== Proof.RefValue.lean ====
/-
  The reference program's result is the specification `Cert.Spec.G`, for index words in `[0, 16)`.

  The reference takes, for every output channel `o` and position `128·g + k`, the level of row `o` of the level table
  at the index word `w = index[o, g, k]`: it wraps a negative word by adding 16, tests `0 ≤ w ≤ 15`, reads the table at
  the word clamped into `[0, 15]`, and substitutes a filler where the test fails. For `w` in `[0, 16)` the wrap keeps
  `w`, the test passes everywhere (so its and-reduce over the unit axis is 1 everywhere and the filler is never
  selected), and the clamped word is `w` itself: the taken level is `levels[o, w]`. Times the scale of `(o, g)`, plus
  the residual of `(o, g, k)`, that is the dequantised weight; transposed and flattened it sits at row `128·g + k`,
  column `o` of the matrix the activations are contracted against. The contraction over the 4096 rows is the double
  sum over groups and lanes (`Cert.Spec.sum_pos`), and the bias of channel `o` is added.
-/
import proofs.«415641_j2173253452238_1_alg».proof.Proof.Spec
import proofs.«415641_j2173253452238_1_alg».proof.Proof.RefRead
import Idealize.ShloMosaic.Lib.ReduceAll
import Idealize.ShloMosaic.Lib.Affine

noncomputable section

namespace Cert.RefValue

open Idealize.ShloMosaic Idealize.ShloMosaic.ValueIdx Cert.ReferenceIdeal Cert.ReferenceIdeal.ReadP

/-! ## Index words in `[0, 16)` -/

section Word
variable {w : BitVec 32}

/-- A word below 16 reads the same signed as unsigned. -/
theorem toInt_of_lt (h : w.toNat < 16) : w.toInt = (w.toNat : Int) :=
  BitVec.toInt_eq_toNat_of_lt (by omega)

/-- A word below 16 is not negative: the wrap-around select keeps it. -/
theorem wrap_of_lt (h : w.toNat < 16) (a : BitVec 32) :
    Scalar.select (IntOp.cmpi .slt w 0#32) a w = w := by
  have hn : ¬ IntOp.cmpi .slt w 0#32 = 1#1 := by
    rw [IntOp.cmpi_slt, toInt_of_lt h, show (0#32 : BitVec 32).toInt = 0 from by decide]
    omega
  exact if_neg hn

/-- A word below 16 passes the bounds test `0 ≤ w ≤ 15`. -/
theorem inBounds_of_lt (h : w.toNat < 16) :
    IntOp.andi (IntOp.cmpi .sge w 0#32) (IntOp.cmpi .sle w 15#32) = 1#1 := by
  rw [IntOp.andi_eq_one, IntOp.cmpi_sge, IntOp.cmpi_sle, toInt_of_lt h,
    show (0#32 : BitVec 32).toInt = 0 from by decide, show (15#32 : BitVec 32).toInt = 15 from by decide]
  omega

/-- A word below 16, read signed and clamped into `[0, 15]`, is itself. -/
theorem clamp_of_lt (h : w.toNat < 16) : min w.toInt.toNat 15 = w.toNat := by
  rw [toInt_of_lt h]; omega

end Word

/-! ## An and-reduce of an all-ones mask -/

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduce by `and` from 1 of a mask that is 1 everywhere is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_one x hx _

/-! ## The batched gather read at an index -/

/-- The gather of the level table at `(r, j)`: row `r` of the table at the start index `idx[r, j, 0]`, read signed and
    clamped into `[0, 15]`. Axis 0 of the table is the batching axis (paired with axis 0 of the start indices), axis 1
    the collapsed axis the start index addresses. -/
theorem gather_apply {α : Type} {w : Nat} (x : S4096x16.Idx → α) (idx : IVec S4096x4096x1 w) (r j : Fin 4096) :
    Host.gather gather_S4096x16_S4096x4096x1_S4096x4096_n_1_0_0_1_2_11 x idx (ix2 r j)
      = x (ix2 r ⟨min (idx (ix3 r j 0)).toInt.toNat 15, by omega⟩) := by
  unfold Host.gather
  congr 1
  funext a
  refine Fin.ext ?_
  match a with
  | ⟨0, _⟩ =>
    show gather_S4096x16_S4096x4096x1_S4096x4096_n_1_0_0_1_2_11.start (ix2 r j) idx 0
      + gather_S4096x16_S4096x4096x1_S4096x4096_n_1_0_0_1_2_11.batchCoord (ix2 r j) 0
      + gather_S4096x16_S4096x4096x1_S4096x4096_n_1_0_0_1_2_11.offCoord (ix2 r j) 0 = r.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S4096x16_S4096x4096x1_S4096x4096_n_1_0_0_1_2_11.operandBatchingDims from List.mem_singleton.mpr rfl)]
    rfl
  | ⟨1, _⟩ =>
    show gather_S4096x16_S4096x4096x1_S4096x4096_n_1_0_0_1_2_11.start (ix2 r j) idx 1
      + gather_S4096x16_S4096x4096x1_S4096x4096_n_1_0_0_1_2_11.batchCoord (ix2 r j) 1
      + gather_S4096x16_S4096x4096x1_S4096x4096_n_1_0_0_1_2_11.offCoord (ix2 r j) 1 = min (idx (ix3 r j 0)).toInt.toNat 15
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x16_S4096x4096x1_S4096x4096_n_1_0_0_1_2_11.startIndexMap from List.mem_singleton.mpr rfl)]
    have hsi : gather_S4096x16_S4096x4096x1_S4096x4096_n_1_0_0_1_2_11.siIdx (ix2 r j)
        ⟨List.idxOf (1 : Fin 2) gather_S4096x16_S4096x4096x1_S4096x4096_n_1_0_0_1_2_11.startIndexMap,
          List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    rw [hsi]
    rfl

/-! ## Index identities: every layout stage at explicit coordinates -/

section Indices
variable (b : Fin 16) (o p : Fin 4096) (g : Fin 32) (k : Fin 128)

/-- Entry `(o, 128·g + k)` of the flattened index array is entry `(o, g, k)` of the index array. -/
theorem idx_v0 : idx_main_v0 (ix2 o (Cert.Spec.pos g k)) = ix3 o g k := by
  have := o.isLt; have := g.isLt; have := k.isLt
  funext a
  match a with
  | ⟨0, _⟩ => exact Fin.ext (by show (o.val * 4096 + (g.val * 128 + k.val)) / 4096 = o.val; omega)
  | ⟨1, _⟩ => exact Fin.ext (by show (o.val * 4096 + (g.val * 128 + k.val)) / 128 % 32 = g.val; omega)
  | ⟨2, _⟩ => exact Fin.ext (by show (o.val * 4096 + (g.val * 128 + k.val)) % 128 = k.val; omega)

/-- Adding the unit axis does not move an entry. -/
theorem idx_call0_v5 : idx_main_call0_v5 (ix3 o p (0 : Fin 1)) = ix2 o p := by
  have := o.isLt; have := p.isLt
  funext a
  match a with
  | ⟨0, _⟩ => exact Fin.ext (by show ((o.val * 4096 + p.val) * 1 + 0) / 4096 = o.val; omega)
  | ⟨1, _⟩ => exact Fin.ext (by show ((o.val * 4096 + p.val) * 1 + 0) % 4096 = p.val; omega)

/-- Entry `(o, g, k)` of the regrouped array is entry `(o, 128·g + k)` of the flat one. -/
theorem idx_v2 : idx_main_v2 (ix3 o g k) = ix2 o (Cert.Spec.pos g k) := by
  have := o.isLt; have := g.isLt; have := k.isLt
  funext a
  match a with
  | ⟨0, _⟩ => exact Fin.ext (by show ((o.val * 32 + g.val) * 128 + k.val) / 4096 = o.val; omega)
  | ⟨1, _⟩ => exact Fin.ext (by show ((o.val * 32 + g.val) * 128 + k.val) % 4096 = g.val * 128 + k.val; omega)

/-- The scale of entry `(o, g, k)` is the scale of `(o, g)`. -/
theorem idx_v34 : idx_main_v3 (idx_main_v4 (ix3 o g k)) = ix2 o g := by
  funext a
  match a with
  | ⟨0, _⟩ => rfl
  | ⟨1, _⟩ => rfl

/-- The transpose moves the output channel last. -/
theorem idx_v7 : idx_main_v7 (ix3 g k o) = ix3 o g k := by
  funext a
  match a with
  | ⟨0, _⟩ => rfl
  | ⟨1, _⟩ => rfl
  | ⟨2, _⟩ => rfl

/-- Row `128·g + k`, column `o` of the weight matrix is entry `(g, k, o)` of the transposed array. -/
theorem idx_v8 : idx_main_v8 (ix2 (Cert.Spec.pos g k) o) = ix3 g k o := by
  have := o.isLt; have := g.isLt; have := k.isLt
  funext a
  match a with
  | ⟨0, _⟩ => exact Fin.ext (by show ((g.val * 128 + k.val) * 4096 + o.val) / 524288 = g.val; omega)
  | ⟨1, _⟩ => exact Fin.ext (by show ((g.val * 128 + k.val) * 4096 + o.val) / 4096 % 128 = k.val; omega)
  | ⟨2, _⟩ => exact Fin.ext (by show ((g.val * 128 + k.val) * 4096 + o.val) % 4096 = o.val; omega)

/-- The contraction reads row `b` of the activations at position `p` … -/
theorem idx_lhs : lidx_main_v9 (ix2 b o) p = ix2 b p := by
  funext a
  match a with
  | ⟨0, _⟩ => rfl
  | ⟨1, _⟩ => rfl

/-- … against row `p`, column `o` of the weight matrix. -/
theorem idx_rhs : ridx_main_v9 (ix2 b o) p = ix2 p o := by
  funext a
  match a with
  | ⟨0, _⟩ => rfl
  | ⟨1, _⟩ => rfl

/-- The bias of entry `(b, o)` is the bias of channel `o`. -/
theorem idx_bias : idx_main_v10 (idx_main_v11 (ix2 b o)) = ix1 o := by
  funext a
  match a with
  | ⟨0, _⟩ => rfl

end Indices

/-! ## The take along the level axis, for index words in `[0, 16)` -/

section Stages
variable (x1 : (⟨S4096x16, .f32⟩ : BufTy).Contents (Elt Ideal)) (x2 : (⟨S4096x32, .f32⟩ : BufTy).Contents (Elt Ideal))
  (x3 : (⟨S4096x32x128, .f32⟩ : BufTy).Contents (Elt Ideal)) (x5 : (⟨S4096x32x128, .i32⟩ : BufTy).Contents (Elt Ideal))
  (h5 : ∀ i : S4096x32x128.Idx, (x5 i).toNat < 16)
include h5

/-- The index wrapped into range (`w + 16` for a negative `w`) is the index word itself. -/
theorem wrapped_eq (i : S4096x4096.Idx) : val_main_call0_v4 (F := Ideal) x5 i = x5 (idx_main_v0 i) := by
  rw [val_main_call0_v4_apply, val_main_call0_v1_apply, val_main_call0_v0_apply, val_main_call0_c_apply,
    val_main_v0_apply]
  exact wrap_of_lt (h5 _) _

/-- The bounds mask is 1 at every entry. -/
theorem mask_one (i : S4096x4096x1.Idx) : val_main_call0_v11 (F := Ideal) x5 i = 1#1 := by
  rw [val_main_call0_v11_apply, val_main_call0_v7_apply, val_main_call0_v10_apply, val_main_call0_v6_apply,
    val_main_call0_c_2_apply, val_main_call0_v9_apply, val_main_call0_v8_apply, val_main_call0_c_1_apply,
    val_main_call0_v5_apply, wrapped_eq x5 h5]
  exact inBounds_of_lt (h5 _)

/-- So is its and-reduce over the unit axis. -/
theorem allIn_one (i : S4096x4096.Idx) : val_main_call0_v12 (F := Ideal) x5 i = 1#1 := by
  unfold val_main_call0_v12
  exact reduce_andi_one _ _ _ _ (mask_one x5 h5) (fun _ => rfl) i

/-- The taken level at `(o, 128·g + k)`: the table's row `o` at the level the index word `(o, g, k)` selects; the
    out-of-bounds filler is never selected. -/
theorem taken_eq (o : Fin 4096) (g : Fin 32) (k : Fin 128) :
    val_main_v1 (F := Ideal) x1 x5 (ix2 o (Cert.Spec.pos g k)) = x1 (ix2 o (Cert.Spec.level (x5 (ix3 o g k)))) := by
  have hw := h5 (ix3 o g k)
  have hv : val_main_call0_v5 (F := Ideal) x5 (ix3 o (Cert.Spec.pos g k) (0 : Fin 1)) = x5 (ix3 o g k) := by
    rw [val_main_call0_v5_apply, wrapped_eq x5 h5, idx_call0_v5, idx_v0]
  rw [val_main_v1_apply, allIn_one x5 h5, select_one]
  unfold val_main_call0_v13
  rw [gather_apply]
  refine congrArg x1 (congrArg (ix2 o) (Fin.ext ?_))
  show min (val_main_call0_v5 (F := Ideal) x5 (ix3 o (Cert.Spec.pos g k) (0 : Fin 1))).toInt.toNat 15
    = (Cert.Spec.level (x5 (ix3 o g k))).val
  rw [hv, clamp_of_lt hw, Cert.Spec.level_val_of_lt hw]

/-- Row `128·g + k`, column `o` of the reference's weight matrix is the dequantised weight. -/
theorem weight_eq (o : Fin 4096) (g : Fin 32) (k : Fin 128) :
    val_main_v8 (F := Ideal) x1 x2 x3 x5 (ix2 (Cert.Spec.pos g k) o) = Cert.Spec.weight x1 x2 x3 x5 o g k := by
  rw [val_main_v8_apply, idx_v8, val_main_v7_apply, idx_v7, val_main_v6_apply, val_main_v5_apply, val_main_v4_apply,
    val_main_v3_apply, idx_v34, val_main_v2_apply, idx_v2, taken_eq x1 x5 h5]
  rfl

end Stages

/-- THE REFERENCE'S RESULT IS THE SPECIFICATION: entry `(b, o)` is the activations' row `b` contracted against the
    dequantised weights of channel `o`, plus that channel's bias. -/
theorem ref_eq_G
    (x0 : (⟨S16x4096, .f32⟩ : BufTy).Contents (Elt Ideal)) (x1 : (⟨S4096x16, .f32⟩ : BufTy).Contents (Elt Ideal))
    (x2 : (⟨S4096x32, .f32⟩ : BufTy).Contents (Elt Ideal)) (x3 : (⟨S4096x32x128, .f32⟩ : BufTy).Contents (Elt Ideal))
    (x4 : (⟨S4096, .f32⟩ : BufTy).Contents (Elt Ideal)) (x5 : (⟨S4096x32x128, .i32⟩ : BufTy).Contents (Elt Ideal))
    (h5 : ∀ i : S4096x32x128.Idx, (x5 i).toNat < 16) :
    val_main_v12 (F := Ideal) x0 x1 x2 x3 x4 x5 = Cert.Spec.G x0 x1 x2 x3 x4 x5 := by
  funext i
  obtain ⟨b, o, rfl⟩ : ∃ b o, i = ix2 b o := ⟨i 0, i 1, eq_ix2 i⟩
  rw [Cert.Spec.G_ix2, val_main_v12_apply, val_main_v9_apply, val_main_v11_apply, val_main_v10_apply, idx_bias,
    Cert.Spec.sum_pos]
  refine congrArg (· + x4 (ix1 o)) ?_
  refine Finset.sum_congr rfl fun g _ => Finset.sum_congr rfl fun k _ => ?_
  rw [idx_lhs, idx_rhs, weight_eq x1 x2 x3 x5 h5]

end Cert.RefValue

end
-- ==== Proof.KernelBody.lean ====
/-
  The kernel body's arithmetic, read at one output entry.

  For one block of 256 output channels the body selects, for every entry `(o, g, k)`, the level its index word names
  (a chain of sixteen compare-and-select steps starting from zero), multiplies by the group's scale and adds the
  residual; it then contracts the activations against those weights one group of 128 positions at a time, adding
  each group's product sums to a running total that starts at zero, and finally adds the bias row.
  With every index word in `[0, 16)` exactly one comparison of the chain holds, so the selected value is the
  table's entry at the word; the running total is the sum over the 32 groups.
-/
import proofs.«415641_j2173253452238_1_alg».proof.Proof.Gen.KernelIdeal.Skeleton
import proofs.«415641_j2173253452238_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelBody

open Cert.KernelIdeal Cert.KernelIdeal.Gen Idealize.ShloMosaic Idealize.ShloMosaic.ValueIdx

variable {F : FTy → Type} [FloatOps F]

/-- The block's dequantised weights: the selected level times the group's scale plus the residual. -/
def grouped (v0 : Vec F S256x32x128 .i32) (v1 : Vec F S256x16 .f32) (v2 : Vec F S256x32 .f32) (v3 : Vec F S256x32x128 .f32) :
    FVec F S256x32x128 .bf16 :=
  k0_pay8 v0 v1 v2 v3 (k0_pay5 v0 v1 (k0_pay2 v0 v1) (k0_pay3 v0) (k0_pay4 v1)) (k0_pay6 v0) (k0_pay7 v1)

/-- What the body stores: the running total over the 32 groups (`xs g` the activations' slab for group `g`) plus the
    bias row `vb`. -/
def body (v0 : Vec F S256x32x128 .i32) (v1 : Vec F S256x16 .f32) (v2 : Vec F S256x32 .f32) (v3 : Vec F S256x32x128 .f32)
    (xs : Fin 32 → Vec F S16x128 .f32) (vb : Vec F S1x256 .f32) : FVec F S16x256 .f32 :=
  k0_pay1 (grouped v0 v1 v2 v3) (k0_pay15 (grouped v0 v1 v2 v3) (k0_pay14 (grouped v0 v1 v2 v3) (k0_pay11 (grouped v0 v1 v2 v3) (k0_pay10 (grouped v0 v1 v2 v3) (k0_pay9 v0 v1 v2 v3 (k0_pay5 v0 v1 (k0_pay2 v0 v1) (k0_pay3 v0) (k0_pay4 v1)) (k0_pay6 v0) (k0_pay7 v1) (xs 0)) (xs 1) (xs 2) (xs 3) (xs 4) (xs 5) (xs 6) (xs 7)) (xs 8) (xs 9) (xs 10) (xs 11) (xs 12) (xs 13)) (k0_pay12 (xs 14)) (k0_pay13 (grouped v0 v1 v2 v3)) (xs 15) (xs 16) (xs 17) (xs 18) (xs 19) (xs 20)) (xs 21) (xs 22) (xs 23) (xs 24) (xs 25) (xs 26) (xs 27)) (xs 28) (xs 29) (xs 30) (xs 31) vb

/-- A column of the level table, spread over a block: at entry `(o, g, k)` it is the table's entry `(o, c)`. -/
theorem column_apply {α : Type} (off : Fin S256x16.rank → Nat) (x : S256x16.Idx → α)
    (hs : S256x16.Slices off S256x1) (h1 : S256x1.ShapeCasts S256) (h2 : S256.ShapeCasts S256x1x1)
    (h3 : S256x1x1.ShapeCasts S256x1x1) (h4 : S256x1x1.Broadcasts S256x32x128)
    (c : Fin 16) (e0 : off 0 = 0) (e1 : off 1 = c.val) (o : Fin 256) (g : Fin 32) (k : Fin 128) :
    broadcastTo S256x32x128 (shapeCast S256x1x1 (shapeCast S256x1x1 (shapeCast S256 (extractStridedSlice S256x1 off x hs) h1) h2) h3) h4 (ix3 o g k)
      = x (ix2 o c) := by
  refine (broadcastTo_apply _ h4 (ix3 o g k) (ix3 o (0 : Fin 1) (0 : Fin 1)) (fun a => ?_)).trans ?_
  · match a with
    | ⟨0, _⟩ => show o.val = if (256 : Nat) = 1 then 0 else o.val; rw [if_neg (by decide)]
    | ⟨1, _⟩ => show 0 = if (1 : Nat) = 1 then 0 else g.val; rw [if_pos rfl]
    | ⟨2, _⟩ => show 0 = if (1 : Nat) = 1 then 0 else k.val; rw [if_pos rfl]
  rw [shapeCast_self]
  refine (shapeCast_apply _ h2 (ix3 o (0 : Fin 1) (0 : Fin 1)) (ix1 o) ?_).trans ?_
  · rw [Shape.rowMajor_val_three, Shape.rowMajor_val_one]
    show o.val = (o.val * 1 + 0) * 1 + 0
    omega
  refine (shapeCast_apply _ h1 (ix1 o) (ix2 o (0 : Fin 1)) ?_).trans ?_
  · rw [Shape.rowMajor_val_two, Shape.rowMajor_val_one]
    show o.val * 1 + 0 = o.val
    omega
  refine extractStridedSlice_apply off x hs (ix2 o (0 : Fin 1)) (ix2 o c) (fun a => ?_)
  match a with
  | ⟨0, _⟩ => show o.val = off 0 + o.val; rw [e0]; omega
  | ⟨1, _⟩ => show c.val = off 1 + 0; rw [e1]; rfl

/-- One step of the selection chain at an entry: where the index word is `l` the step takes the table's column
    `c`, elsewhere it keeps what the chain held. -/
theorem step_apply {α : Type} (off : Fin S256x16.rank → Nat) (v0 : IVec S256x32x128 32) (x : S256x16.Idx → α)
    (hs : S256x16.Slices off S256x1) (h1 : S256x1.ShapeCasts S256) (h2 : S256.ShapeCasts S256x1x1)
    (h3 : S256x1x1.ShapeCasts S256x1x1) (h4 : S256x1x1.Broadcasts S256x32x128)
    (l : BitVec 32) (prev : S256x32x128.Idx → α)
    (c : Fin 16) (e0 : off 0 = 0) (e1 : off 1 = c.val) (o : Fin 256) (g : Fin 32) (k : Fin 128) :
    select (cmpi .eq v0 (broadcast S256x32x128 l))
        (broadcastTo S256x32x128 (shapeCast S256x1x1 (shapeCast S256x1x1 (shapeCast S256 (extractStridedSlice S256x1 off x hs) h1) h2) h3) h4)
        prev (ix3 o g k)
      = if v0 (ix3 o g k) = l then x (ix2 o c) else prev (ix3 o g k) := by
  rw [select_apply, column_apply off x hs h1 h2 h3 h4 c e0 e1 o g k]
  show Scalar.select (IntOp.cmpi .eq (v0 (ix3 o g k)) l) _ _ = _
  by_cases h : v0 (ix3 o g k) = l
  · rw [if_pos h, IntOp.cmpi_eq.2 h, select_one]
  · rw [if_neg h, eq_zero_of_ne_one (fun hc => h (IntOp.cmpi_eq.1 hc)), select_zero]

/-- A scale per `(o, g)`, spread over the group's lanes: at entry `(o, g, k)` it is the scale at `(o, g)`. -/
theorem scale_apply {α : Type} (x : S256x32.Idx → α) (h1 : S256x32.ShapeCasts S256x32x1)
    (h2 : S256x32x1.Broadcasts S256x32x128) (o : Fin 256) (g : Fin 32) (k : Fin 128) :
    broadcastTo S256x32x128 (shapeCast S256x32x1 x h1) h2 (ix3 o g k) = x (ix2 o g) := by
  refine (broadcastTo_apply _ h2 (ix3 o g k) (ix3 o g (0 : Fin 1)) (fun a => ?_)).trans ?_
  · match a with
    | ⟨0, _⟩ => show o.val = if (256 : Nat) = 1 then 0 else o.val; rw [if_neg (by decide)]
    | ⟨1, _⟩ => show g.val = if (32 : Nat) = 1 then 0 else g.val; rw [if_neg (by decide)]
    | ⟨2, _⟩ => show 0 = if (1 : Nat) = 1 then 0 else k.val; rw [if_pos rfl]
  refine shapeCast_apply x h1 (ix3 o g (0 : Fin 1)) (ix2 o g) ?_
  rw [Shape.rowMajor_val_three, Shape.rowMajor_val_two]
  show o.val * 32 + g.val = (o.val * 32 + g.val) * 1 + 0
  omega

/-- Sixteen exclusive tests of a word below 16 pick the entry the word names: exactly one test holds. -/
theorem pick {α : Type} (w : BitVec 32) (hw : w.toNat < 16) (t : Fin 16 → α) (z : α) :
    (if w = 15#32 then t 15 else if w = 14#32 then t 14 else if w = 13#32 then t 13 else if w = 12#32 then t 12 else if w = 11#32 then t 11 else if w = 10#32 then t 10 else if w = 9#32 then t 9 else if w = 8#32 then t 8 else if w = 7#32 then t 7 else if w = 6#32 then t 6 else if w = 5#32 then t 5 else if w = 4#32 then t 4 else if w = 3#32 then t 3 else if w = 2#32 then t 2 else if w = 1#32 then t 1 else if w = 0#32 then t 0 else z) = t (Cert.Spec.level w) := by
  have e : w = BitVec.ofNat 32 w.toNat := BitVec.eq_of_toNat_eq (by rw [BitVec.toNat_ofNat]; exact (Nat.mod_eq_of_lt w.isLt).symm)
  generalize w.toNat = n at hw e
  subst e
  interval_cases n <;> rfl

/-- The dequantised weight at an entry whose index word is below 16: the table's level at the word, times the
    group's scale, plus the residual. -/
theorem grouped_apply (v0 : Vec Ideal S256x32x128 .i32) (v1 : Vec Ideal S256x16 .f32) (v2 : Vec Ideal S256x32 .f32)
    (v3 : Vec Ideal S256x32x128 .f32) (o : Fin 256) (g : Fin 32) (k : Fin 128) (hw : (v0 (ix3 o g k)).toNat < 16) :
    grouped (F := Ideal) v0 v1 v2 v3 (ix3 o g k)
      = v1 (ix2 o (Cert.Spec.level (v0 (ix3 o g k)))) * v2 (ix2 o g) + v3 (ix3 o g k) := by
  unfold grouped k0_pay8 k0_pay7 k0_pay6 k0_pay5 k0_pay4 k0_pay3 k0_pay2
  dsimp only
  rw [truncf_apply, addf_apply, mulf_apply, scale_apply]
  refine congrArg (· * v2 (ix2 o g) + v3 (ix3 o g k)) ?_
  rw [step_apply ![0, 15] v0 v1 _ _ _ _ _ 15#32 _ 15 rfl rfl o g k,
    step_apply ![0, 14] v0 v1 _ _ _ _ _ 14#32 _ 14 rfl rfl o g k,
    step_apply ![0, 13] v0 v1 _ _ _ _ _ 13#32 _ 13 rfl rfl o g k,
    step_apply ![0, 12] v0 v1 _ _ _ _ _ 12#32 _ 12 rfl rfl o g k,
    step_apply ![0, 11] v0 v1 _ _ _ _ _ 11#32 _ 11 rfl rfl o g k,
    step_apply ![0, 10] v0 v1 _ _ _ _ _ 10#32 _ 10 rfl rfl o g k,
    step_apply ![0, 9] v0 v1 _ _ _ _ _ 9#32 _ 9 rfl rfl o g k,
    step_apply ![0, 8] v0 v1 _ _ _ _ _ 8#32 _ 8 rfl rfl o g k,
    step_apply ![0, 7] v0 v1 _ _ _ _ _ 7#32 _ 7 rfl rfl o g k,
    step_apply ![0, 6] v0 v1 _ _ _ _ _ 6#32 _ 6 rfl rfl o g k,
    step_apply ![0, 5] v0 v1 _ _ _ _ _ 5#32 _ 5 rfl rfl o g k,
    step_apply ![0, 4] v0 v1 _ _ _ _ _ 4#32 _ 4 rfl rfl o g k,
    step_apply ![0, 3] v0 v1 _ _ _ _ _ 3#32 _ 3 rfl rfl o g k,
    step_apply ![0, 2] v0 v1 _ _ _ _ _ 2#32 _ 2 rfl rfl o g k,
    step_apply ![0, 1] v0 v1 _ _ _ _ _ 1#32 _ 1 rfl rfl o g k,
    step_apply ![0, 0] v0 v1 _ _ _ _ _ 0#32 _ 0 rfl rfl o g k]
  exact pick (v0 (ix3 o g k)) hw (fun c => v1 (ix2 o c)) _

/-- The dot's left operand index at output `i`, contraction `q`: its kept axis is the batch row. -/
theorem lhs_axis0 (i : S16x256.Idx) (q : dot_S16x128_S256x128_S16x256_1_1_0_0_n_n.contr.Idx) :
    (dot_S16x128_S256x128_S16x256_1_1_0_0_n_n.lhsIdx i q 0).val = (i 0).val := by
  unfold DotDims.lhsIdx
  rw [dif_neg (show ¬(0 : Fin S16x128.rank) ∈ dot_S16x128_S256x128_S16x256_1_1_0_0_n_n.lhsBatch by decide), dif_pos (show (0 : Fin S16x128.rank) ∈ dot_S16x128_S256x128_S16x256_1_1_0_0_n_n.lhsNonContracting by decide)]
  rfl
/-- Its contracted axis is the lane. -/
theorem lhs_axis1 (i : S16x256.Idx) (q : dot_S16x128_S256x128_S16x256_1_1_0_0_n_n.contr.Idx) :
    (dot_S16x128_S256x128_S16x256_1_1_0_0_n_n.lhsIdx i q 1).val = (q ⟨0, by decide⟩).val :=
  dot_S16x128_S256x128_S16x256_1_1_0_0_n_n.lhsIdx_val_of_single rfl i q
/-- The right operand's kept axis is the output channel. -/
theorem rhs_axis0 (i : S16x256.Idx) (q : dot_S16x128_S256x128_S16x256_1_1_0_0_n_n.contr.Idx) :
    (dot_S16x128_S256x128_S16x256_1_1_0_0_n_n.rhsIdx i q 0).val = (i 1).val := by
  unfold DotDims.rhsIdx
  rw [dif_neg (show ¬(0 : Fin S256x128.rank) ∈ dot_S16x128_S256x128_S16x256_1_1_0_0_n_n.rhsBatch by decide), dif_pos (show (0 : Fin S256x128.rank) ∈ dot_S16x128_S256x128_S16x256_1_1_0_0_n_n.rhsNonContracting by decide)]
  rfl
/-- Its contracted axis is the lane. -/
theorem rhs_axis1 (i : S16x256.Idx) (q : dot_S16x128_S256x128_S16x256_1_1_0_0_n_n.contr.Idx) :
    (dot_S16x128_S256x128_S16x256_1_1_0_0_n_n.rhsIdx i q 1).val = (q ⟨0, by decide⟩).val :=
  dot_S16x128_S256x128_S16x256_1_1_0_0_n_n.rhsIdx_val_of_single rfl i q

/-- One group's product into a zero accumulator, at `(b, o)`: the sum over the 128 lanes of left `(b, k)` times
    right `(o, k)`. -/
theorem dot_apply (lhs : FVec Ideal S16x128 .bf16) (rhs : FVec Ideal S256x128 .bf16) (b : Fin 16) (o : Fin 256) :
    matmul dot_S16x128_S256x128_S16x256_1_1_0_0_n_n none lhs rhs (constant (F := Ideal) S16x256 .f32 0x00000000#32) (ix2 b o)
      = ∑ k : Fin 128, lhs (ix2 b k) * rhs (ix2 o k) := by
  simp only [matmul]
  rw [Ideal.matmul_constant_zero_apply, ← Equiv.sum_comp (ValueIdx.contrEquiv1 dot_S16x128_S256x128_S16x256_1_1_0_0_n_n 128 rfl rfl).symm]
  refine Finset.sum_congr rfl fun k _ => ?_
  have hk := ValueIdx.contrEquiv1_symm_val dot_S16x128_S256x128_S16x256_1_1_0_0_n_n 128 rfl rfl k
  have el : dot_S16x128_S256x128_S16x256_1_1_0_0_n_n.lhsIdx (ix2 b o) ((ValueIdx.contrEquiv1 dot_S16x128_S256x128_S16x256_1_1_0_0_n_n 128 rfl rfl).symm k) = ix2 b k := funext fun a => Fin.ext (by
    match a with
    | ⟨0, _⟩ => exact lhs_axis0 _ _
    | ⟨1, _⟩ => exact (lhs_axis1 _ _).trans hk)
  have er : dot_S16x128_S256x128_S16x256_1_1_0_0_n_n.rhsIdx (ix2 b o) ((ValueIdx.contrEquiv1 dot_S16x128_S256x128_S16x256_1_1_0_0_n_n 128 rfl rfl).symm k) = ix2 o k := funext fun a => Fin.ext (by
    match a with
    | ⟨0, _⟩ => exact rhs_axis0 _ _
    | ⟨1, _⟩ => exact (rhs_axis1 _ _).trans hk)
  rw [el, er]

/-- Group `g`'s slab of the weights, as a matrix: at `(o, k)` it is the weight at `(o, g, k)`. -/
theorem slab_apply {α : Type} (off : Fin S256x32x128.rank → Nat) (W : S256x32x128.Idx → α)
    (hs : S256x32x128.Slices off S256x1x128) (hc : S256x1x128.ShapeCasts S256x128)
    (g : Fin 32) (e0 : off 0 = 0) (e1 : off 1 = g.val) (e2 : off 2 = 0) (o : Fin 256) (k : Fin 128) :
    shapeCast S256x128 (extractStridedSlice S256x1x128 off W hs) hc (ix2 o k) = W (ix3 o g k) := by
  refine (shapeCast_apply _ hc (ix2 o k) (ix3 o (0 : Fin 1) k) ?_).trans ?_
  · rw [Shape.rowMajor_val_three, Shape.rowMajor_val_two]
    show (o.val * 1 + 0) * 128 + k.val = o.val * 128 + k.val
    omega
  refine extractStridedSlice_apply off W hs (ix3 o (0 : Fin 1) k) (ix3 o g k) (fun a => ?_)
  match a with
  | ⟨0, _⟩ => show o.val = off 0 + o.val; rw [e0]; omega
  | ⟨1, _⟩ => show g.val = off 1 + 0; rw [e1]; rfl
  | ⟨2, _⟩ => show k.val = off 2 + k.val; rw [e2]; omega

/-- One group's step of the running total at `(b, o)`: the total so far plus the group's product sum. -/
theorem group_apply (off : Fin S256x32x128.rank → Nat) (acc : FVec Ideal S16x256 .f32) (x : Vec Ideal S16x128 .f32)
    (W : FVec Ideal S256x32x128 .bf16) (hb : FTy.bits .bf16 < FTy.bits .f32)
    (hs : S256x32x128.Slices off S256x1x128) (hc : S256x1x128.ShapeCasts S256x128)
    (g : Fin 32) (e0 : off 0 = 0) (e1 : off 1 = g.val) (e2 : off 2 = 0) (b : Fin 16) (o : Fin 256) :
    addf acc (matmul dot_S16x128_S256x128_S16x256_1_1_0_0_n_n none (truncf .bf16 x hb)
        (shapeCast S256x128 (extractStridedSlice S256x1x128 off W hs) hc) (constant (F := Ideal) S16x256 .f32 0x00000000#32)) (ix2 b o)
      = acc (ix2 b o) + ∑ k : Fin 128, x (ix2 b k) * W (ix3 o g k) := by
  refine (addf_apply _ _ _).trans ?_
  refine congrArg (acc (ix2 b o) + ·) ?_
  refine (dot_apply _ _ b o).trans ?_
  refine Finset.sum_congr rfl fun k _ => ?_
  rw [slab_apply off W hs hc g e0 e1 e2 o k]
  rfl

/-- The bias row spread over the batch rows: at `(b, o)` it is the bias at `(0, o)`. -/
theorem bias_apply {α : Type} (x : S1x256.Idx → α) (h1 : S1x256.ShapeCasts S1x256) (h2 : S1x256.Broadcasts S16x256)
    (b : Fin 16) (o : Fin 256) :
    broadcastTo S16x256 (shapeCast S1x256 x h1) h2 (ix2 b o) = x (ix2 (0 : Fin 1) o) := by
  rw [shapeCast_self]
  refine broadcastTo_apply x h2 (ix2 b o) (ix2 (0 : Fin 1) o) (fun a => ?_)
  match a with
  | ⟨0, _⟩ => show 0 = if (1 : Nat) = 1 then 0 else b.val; rw [if_pos rfl]
  | ⟨1, _⟩ => show o.val = if (256 : Nat) = 1 then 0 else o.val; rw [if_neg (by decide)]

/-- A running total that starts at zero and adds the 32 groups' terms in order is their sum. -/
theorem sum_groups {M : Type} [AddCommMonoid M] (f : Fin 32 → M) :
    0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 = ∑ g : Fin 32, f g := by
  symm
  simp only [Fin.sum_univ_castSucc, Fin.sum_univ_zero]
  rfl

/-- The running total after group 0: zero plus its product sum. -/
theorem k0_pay9_apply (v0 : Vec Ideal S256x32x128 .i32) (v1 : Vec Ideal S256x16 .f32) (v2 : Vec Ideal S256x32 .f32)
    (v3 : Vec Ideal S256x32x128 .f32) (v92 : FVec Ideal S256x32x128 .f32) (v94 : IVec S256x32x128 1) (v95 : FVec Ideal S256x1 .f32)
    (x0 : Vec Ideal S16x128 .f32) (b : Fin 16) (o : Fin 256) :
    k0_pay9 v0 v1 v2 v3 v92 v94 v95 x0 (ix2 b o)
      = 0 + (∑ k : Fin 128, x0 (ix2 b k) * k0_pay8 v0 v1 v2 v3 v92 v94 v95 (ix3 o (0 : Fin 32) k)) := by
  unfold k0_pay9
  rw [group_apply ![0, 0, 0] _ _ _ _ _ _ 0 rfl rfl rfl b o, broadcast_apply]
  show Ideal.ofBits .f32 0x00000000#32 + _ = _
  rw [Ideal.ofBits_zero_f32]

/-- Groups 1 to 7 added to the running total. -/
theorem k0_pay10_apply (W : FVec Ideal S256x32x128 .bf16) (acc : FVec Ideal S16x256 .f32)
    (x1 x2 x3 x4 x5 x6 x7 : Vec Ideal S16x128 .f32) (b : Fin 16) (o : Fin 256) :
    k0_pay10 W acc x1 x2 x3 x4 x5 x6 x7 (ix2 b o)
      = acc (ix2 b o) + (∑ k : Fin 128, x1 (ix2 b k) * W (ix3 o (1 : Fin 32) k)) + (∑ k : Fin 128, x2 (ix2 b k) * W (ix3 o (2 : Fin 32) k)) + (∑ k : Fin 128, x3 (ix2 b k) * W (ix3 o (3 : Fin 32) k)) + (∑ k : Fin 128, x4 (ix2 b k) * W (ix3 o (4 : Fin 32) k)) + (∑ k : Fin 128, x5 (ix2 b k) * W (ix3 o (5 : Fin 32) k)) + (∑ k : Fin 128, x6 (ix2 b k) * W (ix3 o (6 : Fin 32) k)) + (∑ k : Fin 128, x7 (ix2 b k) * W (ix3 o (7 : Fin 32) k)) := by
  unfold k0_pay10
  rw [group_apply ![0, 7, 0] _ _ _ _ _ _ 7 rfl rfl rfl b o,
    group_apply ![0, 6, 0] _ _ _ _ _ _ 6 rfl rfl rfl b o,
    group_apply ![0, 5, 0] _ _ _ _ _ _ 5 rfl rfl rfl b o,
    group_apply ![0, 4, 0] _ _ _ _ _ _ 4 rfl rfl rfl b o,
    group_apply ![0, 3, 0] _ _ _ _ _ _ 3 rfl rfl rfl b o,
    group_apply ![0, 2, 0] _ _ _ _ _ _ 2 rfl rfl rfl b o,
    group_apply ![0, 1, 0] _ _ _ _ _ _ 1 rfl rfl rfl b o]

/-- Groups 8 to 13 added to the running total. -/
theorem k0_pay11_apply (W : FVec Ideal S256x32x128 .bf16) (acc : FVec Ideal S16x256 .f32)
    (x8 x9 x10 x11 x12 x13 : Vec Ideal S16x128 .f32) (b : Fin 16) (o : Fin 256) :
    k0_pay11 W acc x8 x9 x10 x11 x12 x13 (ix2 b o)
      = acc (ix2 b o) + (∑ k : Fin 128, x8 (ix2 b k) * W (ix3 o (8 : Fin 32) k)) + (∑ k : Fin 128, x9 (ix2 b k) * W (ix3 o (9 : Fin 32) k)) + (∑ k : Fin 128, x10 (ix2 b k) * W (ix3 o (10 : Fin 32) k)) + (∑ k : Fin 128, x11 (ix2 b k) * W (ix3 o (11 : Fin 32) k)) + (∑ k : Fin 128, x12 (ix2 b k) * W (ix3 o (12 : Fin 32) k)) + (∑ k : Fin 128, x13 (ix2 b k) * W (ix3 o (13 : Fin 32) k)) := by
  unfold k0_pay11
  rw [group_apply ![0, 13, 0] _ _ _ _ _ _ 13 rfl rfl rfl b o,
    group_apply ![0, 12, 0] _ _ _ _ _ _ 12 rfl rfl rfl b o,
    group_apply ![0, 11, 0] _ _ _ _ _ _ 11 rfl rfl rfl b o,
    group_apply ![0, 10, 0] _ _ _ _ _ _ 10 rfl rfl rfl b o,
    group_apply ![0, 9, 0] _ _ _ _ _ _ 9 rfl rfl rfl b o,
    group_apply ![0, 8, 0] _ _ _ _ _ _ 8 rfl rfl rfl b o]

/-- Groups 14 to 20 added to the running total. -/
theorem k0_pay14_apply (W : FVec Ideal S256x32x128 .bf16) (acc : FVec Ideal S16x256 .f32)
    (x14 x15 x16 x17 x18 x19 x20 : Vec Ideal S16x128 .f32) (b : Fin 16) (o : Fin 256) :
    k0_pay14 W acc (k0_pay12 x14) (k0_pay13 W) x15 x16 x17 x18 x19 x20 (ix2 b o)
      = acc (ix2 b o) + (∑ k : Fin 128, x14 (ix2 b k) * W (ix3 o (14 : Fin 32) k)) + (∑ k : Fin 128, x15 (ix2 b k) * W (ix3 o (15 : Fin 32) k)) + (∑ k : Fin 128, x16 (ix2 b k) * W (ix3 o (16 : Fin 32) k)) + (∑ k : Fin 128, x17 (ix2 b k) * W (ix3 o (17 : Fin 32) k)) + (∑ k : Fin 128, x18 (ix2 b k) * W (ix3 o (18 : Fin 32) k)) + (∑ k : Fin 128, x19 (ix2 b k) * W (ix3 o (19 : Fin 32) k)) + (∑ k : Fin 128, x20 (ix2 b k) * W (ix3 o (20 : Fin 32) k)) := by
  unfold k0_pay14 k0_pay12 k0_pay13
  dsimp only
  rw [group_apply ![0, 20, 0] _ _ _ _ _ _ 20 rfl rfl rfl b o,
    group_apply ![0, 19, 0] _ _ _ _ _ _ 19 rfl rfl rfl b o,
    group_apply ![0, 18, 0] _ _ _ _ _ _ 18 rfl rfl rfl b o,
    group_apply ![0, 17, 0] _ _ _ _ _ _ 17 rfl rfl rfl b o,
    group_apply ![0, 16, 0] _ _ _ _ _ _ 16 rfl rfl rfl b o,
    group_apply ![0, 15, 0] _ _ _ _ _ _ 15 rfl rfl rfl b o,
    group_apply ![0, 14, 0] _ _ _ _ _ _ 14 rfl rfl rfl b o]

/-- Groups 21 to 27 added to the running total. -/
theorem k0_pay15_apply (W : FVec Ideal S256x32x128 .bf16) (acc : FVec Ideal S16x256 .f32)
    (x21 x22 x23 x24 x25 x26 x27 : Vec Ideal S16x128 .f32) (b : Fin 16) (o : Fin 256) :
    k0_pay15 W acc x21 x22 x23 x24 x25 x26 x27 (ix2 b o)
      = acc (ix2 b o) + (∑ k : Fin 128, x21 (ix2 b k) * W (ix3 o (21 : Fin 32) k)) + (∑ k : Fin 128, x22 (ix2 b k) * W (ix3 o (22 : Fin 32) k)) + (∑ k : Fin 128, x23 (ix2 b k) * W (ix3 o (23 : Fin 32) k)) + (∑ k : Fin 128, x24 (ix2 b k) * W (ix3 o (24 : Fin 32) k)) + (∑ k : Fin 128, x25 (ix2 b k) * W (ix3 o (25 : Fin 32) k)) + (∑ k : Fin 128, x26 (ix2 b k) * W (ix3 o (26 : Fin 32) k)) + (∑ k : Fin 128, x27 (ix2 b k) * W (ix3 o (27 : Fin 32) k)) := by
  unfold k0_pay15
  rw [group_apply ![0, 27, 0] _ _ _ _ _ _ 27 rfl rfl rfl b o,
    group_apply ![0, 26, 0] _ _ _ _ _ _ 26 rfl rfl rfl b o,
    group_apply ![0, 25, 0] _ _ _ _ _ _ 25 rfl rfl rfl b o,
    group_apply ![0, 24, 0] _ _ _ _ _ _ 24 rfl rfl rfl b o,
    group_apply ![0, 23, 0] _ _ _ _ _ _ 23 rfl rfl rfl b o,
    group_apply ![0, 22, 0] _ _ _ _ _ _ 22 rfl rfl rfl b o,
    group_apply ![0, 21, 0] _ _ _ _ _ _ 21 rfl rfl rfl b o]

/-- Groups 28 to 31 added to the running total, then the bias row. -/
theorem k0_pay1_apply (W : FVec Ideal S256x32x128 .bf16) (acc : FVec Ideal S16x256 .f32)
    (x28 x29 x30 x31 : Vec Ideal S16x128 .f32) (vb : Vec Ideal S1x256 .f32) (b : Fin 16) (o : Fin 256) :
    k0_pay1 W acc x28 x29 x30 x31 vb (ix2 b o)
      = acc (ix2 b o) + (∑ k : Fin 128, x28 (ix2 b k) * W (ix3 o (28 : Fin 32) k)) + (∑ k : Fin 128, x29 (ix2 b k) * W (ix3 o (29 : Fin 32) k)) + (∑ k : Fin 128, x30 (ix2 b k) * W (ix3 o (30 : Fin 32) k)) + (∑ k : Fin 128, x31 (ix2 b k) * W (ix3 o (31 : Fin 32) k)) + vb (ix2 (0 : Fin 1) o) := by
  unfold k0_pay1
  rw [addf_apply, bias_apply, group_apply ![0, 31, 0] _ _ _ _ _ _ 31 rfl rfl rfl b o,
    group_apply ![0, 30, 0] _ _ _ _ _ _ 30 rfl rfl rfl b o,
    group_apply ![0, 29, 0] _ _ _ _ _ _ 29 rfl rfl rfl b o,
    group_apply ![0, 28, 0] _ _ _ _ _ _ 28 rfl rfl rfl b o]

/-- The stored value at batch row `b` and the block's output channel `o`, when every index word of the block is
    below 16. -/
theorem body_apply (v0 : Vec Ideal S256x32x128 .i32) (v1 : Vec Ideal S256x16 .f32) (v2 : Vec Ideal S256x32 .f32)
    (v3 : Vec Ideal S256x32x128 .f32) (xs : Fin 32 → Vec Ideal S16x128 .f32) (vb : Vec Ideal S1x256 .f32)
    (h0 : ∀ i : S256x32x128.Idx, (v0 i).toNat < 16) (b : Fin 16) (o : Fin 256) :
    body (F := Ideal) v0 v1 v2 v3 xs vb (ix2 b o)
      = (∑ g : Fin 32, ∑ k : Fin 128, xs g (ix2 b k)
            * (v1 (ix2 o (Cert.Spec.level (v0 (ix3 o g k)))) * v2 (ix2 o g) + v3 (ix3 o g k)))
        + vb (ix2 (0 : Fin 1) o) := by
  unfold body
  rw [k0_pay1_apply, k0_pay15_apply, k0_pay14_apply, k0_pay11_apply, k0_pay10_apply, k0_pay9_apply]
  rw [show k0_pay8 v0 v1 v2 v3 (k0_pay5 v0 v1 (k0_pay2 v0 v1) (k0_pay3 v0) (k0_pay4 v1)) (k0_pay6 v0) (k0_pay7 v1)
      = grouped v0 v1 v2 v3 from rfl]
  refine (congrArg (· + vb (ix2 (0 : Fin 1) o))
    (sum_groups (fun g => ∑ k : Fin 128, xs g (ix2 b k) * grouped v0 v1 v2 v3 (ix3 o g k)))).trans ?_
  refine congrArg (· + vb (ix2 (0 : Fin 1) o)) ?_
  refine Finset.sum_congr rfl fun g _ => Finset.sum_congr rfl fun k _ => ?_
  rw [grouped_apply v0 v1 v2 v3 o g k (h0 _)]

end Cert.KernelBody

end
-- ==== Proof.KernelValue.lean ====
/-
  From what each grid point writes back to the whole result array.

  The grid has 16 points; point `t` works on output channels `256·t … 256·t + 255`: it is handed rows `256·t + o` of the
  level table, the scales, the residuals and the index words, all of the activations, and columns `256·t + o` of the bias
  row, and writes back columns `256·t + o` of the result. Reading each handed block back at the array (`*_read`) turns the
  body's stored value (the module on the body's arithmetic) into the specification `G` at `(b, 256·t + o)`; the sixteen
  column blocks tile the result array, so the array ends at `G` everywhere.
-/
import proofs.«415641_j2173253452238_1_alg».proof.Proof.Gen.KernelIdeal.Value
import proofs.«415641_j2173253452238_1_alg».proof.Proof.KernelBody
import proofs.«415641_j2173253452238_1_alg».proof.Proof.Spec
import Idealize.ShloMosaic.Lib.ValueIdx
import Idealize.ShloMosaic.Lib.ValueLayout
import Idealize.ShloMosaic.Lib.Pipeline.Value

noncomputable section

namespace Cert.KernelValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

/-! ## The body's stored value over its loads -/

section Generic
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The activations' 32 slabs of 128 columns, as the body loads them. -/
def slabs (x4 : Vec F S16x4096 .f32) : Fin 32 → Vec F S16x128 .f32 := fun g => match g with
  | ⟨0, _⟩ => View.ld x4 r0_3
  | ⟨1, _⟩ => View.ld x4 r0_4
  | ⟨2, _⟩ => View.ld x4 r0_5
  | ⟨3, _⟩ => View.ld x4 r0_6
  | ⟨4, _⟩ => View.ld x4 r0_7
  | ⟨5, _⟩ => View.ld x4 r0_8
  | ⟨6, _⟩ => View.ld x4 r0_9
  | ⟨7, _⟩ => View.ld x4 r0_10
  | ⟨8, _⟩ => View.ld x4 r0_11
  | ⟨9, _⟩ => View.ld x4 r0_12
  | ⟨10, _⟩ => View.ld x4 r0_13
  | ⟨11, _⟩ => View.ld x4 r0_14
  | ⟨12, _⟩ => View.ld x4 r0_15
  | ⟨13, _⟩ => View.ld x4 r0_16
  | ⟨14, _⟩ => View.ld x4 r0_17
  | ⟨15, _⟩ => View.ld x4 r0_18
  | ⟨16, _⟩ => View.ld x4 r0_19
  | ⟨17, _⟩ => View.ld x4 r0_20
  | ⟨18, _⟩ => View.ld x4 r0_21
  | ⟨19, _⟩ => View.ld x4 r0_22
  | ⟨20, _⟩ => View.ld x4 r0_23
  | ⟨21, _⟩ => View.ld x4 r0_24
  | ⟨22, _⟩ => View.ld x4 r0_25
  | ⟨23, _⟩ => View.ld x4 r0_26
  | ⟨24, _⟩ => View.ld x4 r0_27
  | ⟨25, _⟩ => View.ld x4 r0_28
  | ⟨26, _⟩ => View.ld x4 r0_29
  | ⟨27, _⟩ => View.ld x4 r0_30
  | ⟨28, _⟩ => View.ld x4 r0_31
  | ⟨29, _⟩ => View.ld x4 r0_32
  | ⟨30, _⟩ => View.ld x4 r0_33
  | ⟨31, _⟩ => View.ld x4 r0_34
  | ⟨_ + 32, h⟩ => absurd h (Nat.not_lt.2 (Nat.le_add_left _ _))

/-- What the body leaves in the output block is its arithmetic over the loaded blocks. -/
theorem out0_6_eq (x0 : Vec F S256x16 .f32) (x1 : Vec F S256x32 .f32) (x2 : Vec F S256x32x128 .f32) (x3 : Vec F S256x32x128 .i32)
    (x4 : Vec F S16x4096 .f32) (x5 : Vec F S1x256 .f32) :
    out0_6 x0 x1 x2 x3 x4 x5 = Cert.KernelBody.body x3 x0 x1 x2 (slabs x4) x5 := by
  unfold out0_6
  rw [View.canon_unit_zero hz2]
  simp only [View.ld_unit_zero (S := S256x32x128) hz3, View.ld_unit_zero (S := S256x16) hz2, View.ld_unit_zero (S := S256x32) hz2,
    View.ld_unit_zero (S := S1x256) hz2]
  rfl

end Generic

/-- Slab `g` at `(b, k)` is the activations at `(b, 128·g + k)`. -/
theorem slabs_apply (x4 : Vec Ideal S16x4096 .f32) (b : Fin 16) (k : Fin 128) :
    (g : Fin 32) → slabs x4 g (ix2 b k) = x4 (ix2 b (Cert.Spec.pos g k))
  | ⟨0, _⟩ => by
      show x4 (r0_3.idx (ix2 b k)) = x4 (ix2 b (Cert.Spec.pos ⟨0, by omega⟩ k))
      refine congrArg x4 (funext fun a => Fin.ext ?_)
      match a with
      | ⟨0, _⟩ => show 0 + 1 * b.val = b.val; omega
      | ⟨1, _⟩ => show 0 + 1 * k.val = 0 * 128 + k.val; omega
  | ⟨1, _⟩ => by
      show x4 (r0_4.idx (ix2 b k)) = x4 (ix2 b (Cert.Spec.pos ⟨1, by omega⟩ k))
      refine congrArg x4 (funext fun a => Fin.ext ?_)
      match a with
      | ⟨0, _⟩ => show 0 + 1 * b.val = b.val; omega
      | ⟨1, _⟩ => show 128 + 1 * k.val = 1 * 128 + k.val; omega
  | ⟨2, _⟩ => by
      show x4 (r0_5.idx (ix2 b k)) = x4 (ix2 b (Cert.Spec.pos ⟨2, by omega⟩ k))
      refine congrArg x4 (funext fun a => Fin.ext ?_)
      match a with
      | ⟨0, _⟩ => show 0 + 1 * b.val = b.val; omega
      | ⟨1, _⟩ => show 256 + 1 * k.val = 2 * 128 + k.val; omega
  | ⟨3, _⟩ => by
      show x4 (r0_6.idx (ix2 b k)) = x4 (ix2 b (Cert.Spec.pos ⟨3, by omega⟩ k))
      refine congrArg x4 (funext fun a => Fin.ext ?_)
      match a with
      | ⟨0, _⟩ => show 0 + 1 * b.val = b.val; omega
      | ⟨1, _⟩ => show 384 + 1 * k.val = 3 * 128 + k.val; omega
  | ⟨4, _⟩ => by
      show x4 (r0_7.idx (ix2 b k)) = x4 (ix2 b (Cert.Spec.pos ⟨4, by omega⟩ k))
      refine congrArg x4 (funext fun a => Fin.ext ?_)
      match a with
      | ⟨0, _⟩ => show 0 + 1 * b.val = b.val; omega
      | ⟨1, _⟩ => show 512 + 1 * k.val = 4 * 128 + k.val; omega
  | ⟨5, _⟩ => by
      show x4 (r0_8.idx (ix2 b k)) = x4 (ix2 b (Cert.Spec.pos ⟨5, by omega⟩ k))
      refine congrArg x4 (funext fun a => Fin.ext ?_)
      match a with
      | ⟨0, _⟩ => show 0 + 1 * b.val = b.val; omega
      | ⟨1, _⟩ => show 640 + 1 * k.val = 5 * 128 + k.val; omega
  | ⟨6, _⟩ => by
      show x4 (r0_9.idx (ix2 b k)) = x4 (ix2 b (Cert.Spec.pos ⟨6, by omega⟩ k))
      refine congrArg x4 (funext fun a => Fin.ext ?_)
      match a with
      | ⟨0, _⟩ => show 0 + 1 * b.val = b.val; omega
      | ⟨1, _⟩ => show 768 + 1 * k.val = 6 * 128 + k.val; omega
  | ⟨7, _⟩ => by
      show x4 (r0_10.idx (ix2 b k)) = x4 (ix2 b (Cert.Spec.pos ⟨7, by omega⟩ k))
      refine congrArg x4 (funext fun a => Fin.ext ?_)
      match a with
      | ⟨0, _⟩ => show 0 + 1 * b.val = b.val; omega
      | ⟨1, _⟩ => show 896 + 1 * k.val = 7 * 128 + k.val; omega
  | ⟨8, _⟩ => by
      show x4 (r0_11.idx (ix2 b k)) = x4 (ix2 b (Cert.Spec.pos ⟨8, by omega⟩ k))
      refine congrArg x4 (funext fun a => Fin.ext ?_)
      match a with
      | ⟨0, _⟩ => show 0 + 1 * b.val = b.val; omega
      | ⟨1, _⟩ => show 1024 + 1 * k.val = 8 * 128 + k.val; omega
  | ⟨9, _⟩ => by
      show x4 (r0_12.idx (ix2 b k)) = x4 (ix2 b (Cert.Spec.pos ⟨9, by omega⟩ k))
      refine congrArg x4 (funext fun a => Fin.ext ?_)
      match a with
      | ⟨0, _⟩ => show 0 + 1 * b.val = b.val; omega
      | ⟨1, _⟩ => show 1152 + 1 * k.val = 9 * 128 + k.val; omega
  | ⟨10, _⟩ => by
      show x4 (r0_13.idx (ix2 b k)) = x4 (ix2 b (Cert.Spec.pos ⟨10, by omega⟩ k))
      refine congrArg x4 (funext fun a => Fin.ext ?_)
      match a with
      | ⟨0, _⟩ => show 0 + 1 * b.val = b.val; omega
      | ⟨1, _⟩ => show 1280 + 1 * k.val = 10 * 128 + k.val; omega
  | ⟨11, _⟩ => by
      show x4 (r0_14.idx (ix2 b k)) = x4 (ix2 b (Cert.Spec.pos ⟨11, by omega⟩ k))
      refine congrArg x4 (funext fun a => Fin.ext ?_)
      match a with
      | ⟨0, _⟩ => show 0 + 1 * b.val = b.val; omega
      | ⟨1, _⟩ => show 1408 + 1 * k.val = 11 * 128 + k.val; omega
  | ⟨12, _⟩ => by
      show x4 (r0_15.idx (ix2 b k)) = x4 (ix2 b (Cert.Spec.pos ⟨12, by omega⟩ k))
      refine congrArg x4 (funext fun a => Fin.ext ?_)
      match a with
      | ⟨0, _⟩ => show 0 + 1 * b.val = b.val; omega
      | ⟨1, _⟩ => show 1536 + 1 * k.val = 12 * 128 + k.val; omega
  | ⟨13, _⟩ => by
      show x4 (r0_16.idx (ix2 b k)) = x4 (ix2 b (Cert.Spec.pos ⟨13, by omega⟩ k))
      refine congrArg x4 (funext fun a => Fin.ext ?_)
      match a with
      | ⟨0, _⟩ => show 0 + 1 * b.val = b.val; omega
      | ⟨1, _⟩ => show 1664 + 1 * k.val = 13 * 128 + k.val; omega
  | ⟨14, _⟩ => by
      show x4 (r0_17.idx (ix2 b k)) = x4 (ix2 b (Cert.Spec.pos ⟨14, by omega⟩ k))
      refine congrArg x4 (funext fun a => Fin.ext ?_)
      match a with
      | ⟨0, _⟩ => show 0 + 1 * b.val = b.val; omega
      | ⟨1, _⟩ => show 1792 + 1 * k.val = 14 * 128 + k.val; omega
  | ⟨15, _⟩ => by
      show x4 (r0_18.idx (ix2 b k)) = x4 (ix2 b (Cert.Spec.pos ⟨15, by omega⟩ k))
      refine congrArg x4 (funext fun a => Fin.ext ?_)
      match a with
      | ⟨0, _⟩ => show 0 + 1 * b.val = b.val; omega
      | ⟨1, _⟩ => show 1920 + 1 * k.val = 15 * 128 + k.val; omega
  | ⟨16, _⟩ => by
      show x4 (r0_19.idx (ix2 b k)) = x4 (ix2 b (Cert.Spec.pos ⟨16, by omega⟩ k))
      refine congrArg x4 (funext fun a => Fin.ext ?_)
      match a with
      | ⟨0, _⟩ => show 0 + 1 * b.val = b.val; omega
      | ⟨1, _⟩ => show 2048 + 1 * k.val = 16 * 128 + k.val; omega
  | ⟨17, _⟩ => by
      show x4 (r0_20.idx (ix2 b k)) = x4 (ix2 b (Cert.Spec.pos ⟨17, by omega⟩ k))
      refine congrArg x4 (funext fun a => Fin.ext ?_)
      match a with
      | ⟨0, _⟩ => show 0 + 1 * b.val = b.val; omega
      | ⟨1, _⟩ => show 2176 + 1 * k.val = 17 * 128 + k.val; omega
  | ⟨18, _⟩ => by
      show x4 (r0_21.idx (ix2 b k)) = x4 (ix2 b (Cert.Spec.pos ⟨18, by omega⟩ k))
      refine congrArg x4 (funext fun a => Fin.ext ?_)
      match a with
      | ⟨0, _⟩ => show 0 + 1 * b.val = b.val; omega
      | ⟨1, _⟩ => show 2304 + 1 * k.val = 18 * 128 + k.val; omega
  | ⟨19, _⟩ => by
      show x4 (r0_22.idx (ix2 b k)) = x4 (ix2 b (Cert.Spec.pos ⟨19, by omega⟩ k))
      refine congrArg x4 (funext fun a => Fin.ext ?_)
      match a with
      | ⟨0, _⟩ => show 0 + 1 * b.val = b.val; omega
      | ⟨1, _⟩ => show 2432 + 1 * k.val = 19 * 128 + k.val; omega
  | ⟨20, _⟩ => by
      show x4 (r0_23.idx (ix2 b k)) = x4 (ix2 b (Cert.Spec.pos ⟨20, by omega⟩ k))
      refine congrArg x4 (funext fun a => Fin.ext ?_)
      match a with
      | ⟨0, _⟩ => show 0 + 1 * b.val = b.val; omega
      | ⟨1, _⟩ => show 2560 + 1 * k.val = 20 * 128 + k.val; omega
  | ⟨21, _⟩ => by
      show x4 (r0_24.idx (ix2 b k)) = x4 (ix2 b (Cert.Spec.pos ⟨21, by omega⟩ k))
      refine congrArg x4 (funext fun a => Fin.ext ?_)
      match a with
      | ⟨0, _⟩ => show 0 + 1 * b.val = b.val; omega
      | ⟨1, _⟩ => show 2688 + 1 * k.val = 21 * 128 + k.val; omega
  | ⟨22, _⟩ => by
      show x4 (r0_25.idx (ix2 b k)) = x4 (ix2 b (Cert.Spec.pos ⟨22, by omega⟩ k))
      refine congrArg x4 (funext fun a => Fin.ext ?_)
      match a with
      | ⟨0, _⟩ => show 0 + 1 * b.val = b.val; omega
      | ⟨1, _⟩ => show 2816 + 1 * k.val = 22 * 128 + k.val; omega
  | ⟨23, _⟩ => by
      show x4 (r0_26.idx (ix2 b k)) = x4 (ix2 b (Cert.Spec.pos ⟨23, by omega⟩ k))
      refine congrArg x4 (funext fun a => Fin.ext ?_)
      match a with
      | ⟨0, _⟩ => show 0 + 1 * b.val = b.val; omega
      | ⟨1, _⟩ => show 2944 + 1 * k.val = 23 * 128 + k.val; omega
  | ⟨24, _⟩ => by
      show x4 (r0_27.idx (ix2 b k)) = x4 (ix2 b (Cert.Spec.pos ⟨24, by omega⟩ k))
      refine congrArg x4 (funext fun a => Fin.ext ?_)
      match a with
      | ⟨0, _⟩ => show 0 + 1 * b.val = b.val; omega
      | ⟨1, _⟩ => show 3072 + 1 * k.val = 24 * 128 + k.val; omega
  | ⟨25, _⟩ => by
      show x4 (r0_28.idx (ix2 b k)) = x4 (ix2 b (Cert.Spec.pos ⟨25, by omega⟩ k))
      refine congrArg x4 (funext fun a => Fin.ext ?_)
      match a with
      | ⟨0, _⟩ => show 0 + 1 * b.val = b.val; omega
      | ⟨1, _⟩ => show 3200 + 1 * k.val = 25 * 128 + k.val; omega
  | ⟨26, _⟩ => by
      show x4 (r0_29.idx (ix2 b k)) = x4 (ix2 b (Cert.Spec.pos ⟨26, by omega⟩ k))
      refine congrArg x4 (funext fun a => Fin.ext ?_)
      match a with
      | ⟨0, _⟩ => show 0 + 1 * b.val = b.val; omega
      | ⟨1, _⟩ => show 3328 + 1 * k.val = 26 * 128 + k.val; omega
  | ⟨27, _⟩ => by
      show x4 (r0_30.idx (ix2 b k)) = x4 (ix2 b (Cert.Spec.pos ⟨27, by omega⟩ k))
      refine congrArg x4 (funext fun a => Fin.ext ?_)
      match a with
      | ⟨0, _⟩ => show 0 + 1 * b.val = b.val; omega
      | ⟨1, _⟩ => show 3456 + 1 * k.val = 27 * 128 + k.val; omega
  | ⟨28, _⟩ => by
      show x4 (r0_31.idx (ix2 b k)) = x4 (ix2 b (Cert.Spec.pos ⟨28, by omega⟩ k))
      refine congrArg x4 (funext fun a => Fin.ext ?_)
      match a with
      | ⟨0, _⟩ => show 0 + 1 * b.val = b.val; omega
      | ⟨1, _⟩ => show 3584 + 1 * k.val = 28 * 128 + k.val; omega
  | ⟨29, _⟩ => by
      show x4 (r0_32.idx (ix2 b k)) = x4 (ix2 b (Cert.Spec.pos ⟨29, by omega⟩ k))
      refine congrArg x4 (funext fun a => Fin.ext ?_)
      match a with
      | ⟨0, _⟩ => show 0 + 1 * b.val = b.val; omega
      | ⟨1, _⟩ => show 3712 + 1 * k.val = 29 * 128 + k.val; omega
  | ⟨30, _⟩ => by
      show x4 (r0_33.idx (ix2 b k)) = x4 (ix2 b (Cert.Spec.pos ⟨30, by omega⟩ k))
      refine congrArg x4 (funext fun a => Fin.ext ?_)
      match a with
      | ⟨0, _⟩ => show 0 + 1 * b.val = b.val; omega
      | ⟨1, _⟩ => show 3840 + 1 * k.val = 30 * 128 + k.val; omega
  | ⟨31, _⟩ => by
      show x4 (r0_34.idx (ix2 b k)) = x4 (ix2 b (Cert.Spec.pos ⟨31, by omega⟩ k))
      refine congrArg x4 (funext fun a => Fin.ext ?_)
      match a with
      | ⟨0, _⟩ => show 0 + 1 * b.val = b.val; omega
      | ⟨1, _⟩ => show 3968 + 1 * k.val = 31 * 128 + k.val; omega
  | ⟨_ + 32, h⟩ => absurd h (Nat.not_lt.2 (Nat.le_add_left _ _))

/-! ## The blocks a point is handed, read back at the arrays -/

variable (m : (ℓ : Loc nD τ sig) → Buf (Elt Ideal) ℓ) (ρ : Dev nD → PrngReg)

/-- Output channel `256·t + o`: channel `o` of point `t`'s block. -/
def chan (t : Fin cfg0.N) (o : Fin 256) : Fin 4096 := ⟨t.val * 256 + o.val, by have : t.val < 16 := t.isLt; have := o.isLt; omega⟩

/-- The printed index maps over the 16 points: the row blocks and the column blocks move with the point, the activations stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

abbrev cbBlk (c : Dev nD) (t : Fin cfg0.N) : Vec Ideal S256x16 .f32 := iblk m c 0 t
abbrev scBlk (c : Dev nD) (t : Fin cfg0.N) : Vec Ideal S256x32 .f32 := iblk m c 1 t
abbrev resBlk (c : Dev nD) (t : Fin cfg0.N) : Vec Ideal S256x32x128 .f32 := iblk m c 2 t
abbrev idxBlk (c : Dev nD) (t : Fin cfg0.N) : Vec Ideal S256x32x128 .i32 := iblk m c 3 t
abbrev inpBlk (c : Dev nD) (t : Fin cfg0.N) : Vec Ideal S16x4096 .f32 := iblk m c 4 t
abbrev biasBlk (c : Dev nD) (t : Fin cfg0.N) : Vec Ideal S1x256 .f32 := iblk m c 5 t

theorem cb_read (c : Dev nD) (t : Fin cfg0.N) (o : Fin 256) (l : Fin 16) :
    cbBlk m c t (ix2 o l) = m ((c : Thread nD τ).loc main_arg1) (ix2 (chan t o) l) := by
  show V m c main_arg1 (((cfg0.win 0).blk t).view.emb (ix2 o l)) = _
  rw [V_main_arg1]
  obtain ⟨e00, e01, -⟩ := idx_facts t
  refine congrArg _ (funext fun a => Fin.ext ?_)
  match a with
  | ⟨0, _⟩ => show win0_0.index t (0 : Fin 2) * 256 + 1 * o.val = t.val * 256 + o.val; omega
  | ⟨1, _⟩ => show win0_0.index t (1 : Fin 2) * 16 + 1 * l.val = l.val; omega

theorem sc_read (c : Dev nD) (t : Fin cfg0.N) (o : Fin 256) (g : Fin 32) :
    scBlk m c t (ix2 o g) = m ((c : Thread nD τ).loc main_arg2) (ix2 (chan t o) g) := by
  show V m c main_arg2 (((cfg0.win 1).blk t).view.emb (ix2 o g)) = _
  rw [V_main_arg2]
  obtain ⟨-, -, e10, e11, -⟩ := idx_facts t
  refine congrArg _ (funext fun a => Fin.ext ?_)
  match a with
  | ⟨0, _⟩ => show win0_1.index t (0 : Fin 2) * 256 + 1 * o.val = t.val * 256 + o.val; omega
  | ⟨1, _⟩ => show win0_1.index t (1 : Fin 2) * 32 + 1 * g.val = g.val; omega

theorem res_read (c : Dev nD) (t : Fin cfg0.N) (o : Fin 256) (g : Fin 32) (k : Fin 128) :
    resBlk m c t (ix3 o g k) = m ((c : Thread nD τ).loc main_arg3) (ix3 (chan t o) g k) := by
  show V m c main_arg3 (((cfg0.win 2).blk t).view.emb (ix3 o g k)) = _
  rw [V_main_arg3]
  obtain ⟨-, -, -, -, e20, e21, e22, -⟩ := idx_facts t
  refine congrArg _ (funext fun a => Fin.ext ?_)
  match a with
  | ⟨0, _⟩ => show win0_2.index t (0 : Fin 3) * 256 + 1 * o.val = t.val * 256 + o.val; omega
  | ⟨1, _⟩ => show win0_2.index t (1 : Fin 3) * 32 + 1 * g.val = g.val; omega
  | ⟨2, _⟩ => show win0_2.index t (2 : Fin 3) * 128 + 1 * k.val = k.val; omega

theorem idx_read (c : Dev nD) (t : Fin cfg0.N) (o : Fin 256) (g : Fin 32) (k : Fin 128) :
    idxBlk m c t (ix3 o g k) = m ((c : Thread nD τ).loc main_arg5) (ix3 (chan t o) g k) := by
  show V m c main_arg5 (((cfg0.win 3).blk t).view.emb (ix3 o g k)) = _
  rw [V_main_arg5]
  obtain ⟨-, -, -, -, -, -, -, e30, e31, e32, -⟩ := idx_facts t
  refine congrArg _ (funext fun a => Fin.ext ?_)
  match a with
  | ⟨0, _⟩ => show win0_3.index t (0 : Fin 3) * 256 + 1 * o.val = t.val * 256 + o.val; omega
  | ⟨1, _⟩ => show win0_3.index t (1 : Fin 3) * 32 + 1 * g.val = g.val; omega
  | ⟨2, _⟩ => show win0_3.index t (2 : Fin 3) * 128 + 1 * k.val = k.val; omega

theorem inp_read (c : Dev nD) (t : Fin cfg0.N) (b : Fin 16) (j : Fin 4096) :
    inpBlk m c t (ix2 b j) = m ((c : Thread nD τ).loc main_arg0) (ix2 b j) := by
  show V m c main_arg0 (((cfg0.win 4).blk t).view.emb (ix2 b j)) = _
  rw [V_main_arg0]
  obtain ⟨-, -, -, -, -, -, -, -, -, -, e40, e41, -⟩ := idx_facts t
  refine congrArg _ (funext fun a => Fin.ext ?_)
  match a with
  | ⟨0, _⟩ => show win0_4.index t (0 : Fin 2) * 16 + 1 * b.val = b.val; omega
  | ⟨1, _⟩ => show win0_4.index t (1 : Fin 2) * 4096 + 1 * j.val = j.val; omega

/-- The bias row the region finds: the bias vector laid out as one row of 4096. -/
theorem biasRow (c : Dev nD) : (V m c main_v0 : S1x4096.Idx → EReal)
    = shapeCast S1x4096 (m ((c : Thread nD τ).loc main_arg4)) shapeCasts_S4096_S1x4096 := by
  dsimp only [Gen.V, Gen.hostOps0]
  after_results
  rfl

theorem bias_read (c : Dev nD) (t : Fin cfg0.N) (o : Fin 256) :
    biasBlk m c t (ix2 (0 : Fin 1) o) = m ((c : Thread nD τ).loc main_arg4) (ix1 (chan t o)) := by
  show V m c main_v0 (((cfg0.win 5).blk t).view.emb (ix2 (0 : Fin 1) o)) = _
  rw [biasRow]
  obtain ⟨-, -, -, -, -, -, -, -, -, -, -, -, e50, e51, -⟩ := idx_facts t
  have e : ((cfg0.win 5).blk t).view.emb (ix2 (0 : Fin 1) o) = ix2 (0 : Fin 1) (chan t o) := by
    refine funext fun a => Fin.ext ?_
    match a with
    | ⟨0, _⟩ => show win0_5.index t (0 : Fin 2) * 1 + 1 * 0 = 0; omega
    | ⟨1, _⟩ => show win0_5.index t (1 : Fin 2) * 256 + 1 * o.val = t.val * 256 + o.val; omega
  rw [e]
  exact shapeCast_a_1a_apply _ _ (0 : Fin 1) (chan t o)

/-! ## What a point writes back, and the whole array -/

/-- The specification at the arguments' launch contents. -/
abbrev Garr (c : Dev nD) : S16x4096.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Point `t` writes back block `t` of the specification, when every index word is below 16. -/
theorem flushed_eq (h5 : ∀ (c : Dev nD) (i : S4096x32x128.Idx), (m ((c : Thread nD τ).loc main_arg5) i).toNat < 16)
    (c : Dev nD) (t : Fin cfg0.N) :
    (dats m 0 c).flushed 6 t = ((cfg0.win 6).blk t).view.read (Elt Ideal) (Garr m c) := by
  rw [Value.flushed6]
  show out0_6 (cbBlk m c t) (scBlk m c t) (resBlk m c t) (idxBlk m c t) (inpBlk m c t) (biasBlk m c t) = _
  rw [out0_6_eq]
  funext j
  obtain ⟨b, o, rfl⟩ : ∃ (b : Fin 16) (o : Fin 256), j = ix2 b o := ⟨j 0, j 1, eq_ix2 j⟩
  have hblk : ∀ i : S256x32x128.Idx, (idxBlk m c t i).toNat < 16 := fun i => by
    obtain ⟨o', g', k', rfl⟩ : ∃ (o' : Fin 256) (g' : Fin 32) (k' : Fin 128), i = ix3 o' g' k' := ⟨i 0, i 1, i 2, eq_ix3 i⟩
    rw [idx_read]; exact h5 c _
  refine (Cert.KernelBody.body_apply (idxBlk m c t) (cbBlk m c t) (scBlk m c t) (resBlk m c t) (slabs (inpBlk m c t)) (biasBlk m c t) hblk b o).trans ?_
  obtain ⟨-, -, -, -, -, -, -, -, -, -, -, -, -, -, e60, e61⟩ := idx_facts t
  have e : ((cfg0.win 6).blk t).view.emb (ix2 b o) = ix2 b (chan t o) := by
    refine funext fun a => Fin.ext ?_
    match a with
    | ⟨0, _⟩ => show win0_6.index t (0 : Fin 2) * 16 + 1 * b.val = b.val; omega
    | ⟨1, _⟩ => show win0_6.index t (1 : Fin 2) * 256 + 1 * o.val = t.val * 256 + o.val; omega
  show _ = Garr m c (((cfg0.win 6).blk t).view.emb (ix2 b o))
  rw [e, bias_read]
  show _ = Cert.Spec.Gat _ _ _ _ _ _ b (chan t o)
  unfold Cert.Spec.Gat Cert.Spec.part Cert.Spec.weight
  refine congrArg (· + _) (Finset.sum_congr rfl fun g _ => Finset.sum_congr rfl fun k _ => ?_)
  rw [slabs_apply, inp_read, idx_read, cb_read, sc_read, res_read]

/-- An index of the result array is in point `t`'s block iff each coordinate is in the block's range on its axis. -/
theorem mem_blk (t : Fin cfg0.N) (i : S16x4096.Idx) :
    i ∈ ((cfg0.win 6).blk t).view.set ↔ ∀ a : Fin 2, win0_6.index t a * S16x256.size a ≤ (i a).val ∧ (i a).val < win0_6.index t a * S16x256.size a + S16x256.size a := by
  show i ∈ ((View.whole main_v1).slice (win0_6.rect t)).set ↔ _
  rw [View.set_slice_whole, Rect.mem_set_unit]
  exact Iff.rfl

/-- Every index of the result array lies in the block of the point that owns its column. -/
theorem cover (i : S16x4096.Idx) : ∃ t : Fin cfg0.N, (cfg0.win 6).flush t = true ∧ i ∈ ((cfg0.win 6).blk t).view.set := by
  have hi0 : (i 0).val < 16 := (i 0).isLt
  have hi1 : (i 1).val < 4096 := (i 1).isLt
  let t : Fin cfg0.N := ⟨(i 1).val / 256, by show (i 1).val / 256 < 16; omega⟩
  obtain ⟨-, -, -, -, -, -, -, -, -, -, -, -, -, -, e60, e61⟩ := idx_facts t
  have ht : t.val = (i 1).val / 256 := rfl
  refine ⟨t, flush0_6 t, ?_⟩
  rw [mem_blk]
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 256 ≤ (i 1).val ∧ (i 1).val < win0_6.index t (1 : Fin 2) * 256 + 256; omega

/-- The result array after the run is the specification. -/
theorem final (h5 : ∀ (c : Dev nD) (i : S4096x32x128.Idx), (m ((c : Thread nD τ).loc main_arg5) i).toNat < 16) (c : Dev nD) :
    (dats m 0 c).arrAt 6 cfg0.N = Garr m c :=
  (dats m 0 c).arrAt_eq_of_cover 6 (Garr m c) (fun t _ => flushed_eq m h5 c t) cover

/-- The kernel's run: the result array ends at the specification of the arguments, the arguments unchanged. -/
theorem run (h5 : ∀ (c : Dev nD) (i : S4096x32x128.Idx), (m ((c : Thread nD τ).loc main_arg5) i).toNat < 16) :
    θ_run defs (onTc (τ := τ) (main (F := Ideal))) ⟨m, fun _ => 0, ρ⟩ fun r => ∀ c : Dev nD,
      r.2.mem ((c : Thread nD τ).loc main_v1) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m h5 c), (h c).2⟩) (Value.run_blocks m ρ)

end Cert.KernelValue

end
-- ==== Proof.lean ====
/-
  A 4-bit codebook-quantised linear layer: the kernel against its reference, over the extended reals.

  Both programs compute, for batch row `b` and output channel `o`,
      (∑ over the 4096 positions j of x[b, j] · (levels[o, index[o, j]] · scale[o, group j] + residual[o, j])) + bias[o],
  the positions taken in 32 groups of 128. The reference gathers the level by the index word (wrapping a negative word
  and filling an out-of-range one), lays the weights out as a 4096 × 4096 matrix and contracts once; the kernel, one block
  of 256 output channels per grid point, finds the level by sixteen compare-and-select steps from zero, and contracts
  group by group into a running total. Under the stated domain — every index word in [0, 16), besides finite float
  inputs — the gather and the select chain read the same table entry, the change of float format is the identity, and the
  two orders of summation are one finite sum in a commutative monoid (`Cert.Spec.sum_pos`); no finiteness is used.

  The frames are the generated ones (the reference's is its run with the result dropped); the idealisation rewrote nothing.
-/
import proofs.«415641_j2173253452238_1_alg».proof.Defs
import proofs.«415641_j2173253452238_1_alg».proof.Proof.Gen.Kernel
import proofs.«415641_j2173253452238_1_alg».proof.Proof.Gen.Kernel.Skeleton
import proofs.«415641_j2173253452238_1_alg».proof.Proof.Gen.Kernel.Launch
import proofs.«415641_j2173253452238_1_alg».proof.Proof.Gen.Kernel.Points
import proofs.«415641_j2173253452238_1_alg».proof.Proof.Gen.Kernel.Frame
import proofs.«415641_j2173253452238_1_alg».proof.Proof.Gen.KernelIdeal
import proofs.«415641_j2173253452238_1_alg».proof.Proof.Gen.KernelIdeal.Skeleton
import proofs.«415641_j2173253452238_1_alg».proof.Proof.Gen.KernelIdeal.Launch
import proofs.«415641_j2173253452238_1_alg».proof.Proof.Gen.KernelIdeal.Points
import proofs.«415641_j2173253452238_1_alg».proof.Proof.Gen.KernelIdeal.Frame
import proofs.«415641_j2173253452238_1_alg».proof.Proof.Gen.ReferenceIdeal
import proofs.«415641_j2173253452238_1_alg».proof.Proof.Gen.Pre_finite_inputs
import proofs.«415641_j2173253452238_1_alg».proof.Proof.Gen.KernelIdeal.Value
import proofs.«415641_j2173253452238_1_alg».proof.Proof.Spec
import proofs.«415641_j2173253452238_1_alg».proof.Proof.RefRun
import proofs.«415641_j2173253452238_1_alg».proof.Proof.RefRead
import proofs.«415641_j2173253452238_1_alg».proof.Proof.PreDecode
import proofs.«415641_j2173253452238_1_alg».proof.Proof.RefValue
import proofs.«415641_j2173253452238_1_alg».proof.Proof.KernelBody
import proofs.«415641_j2173253452238_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The kernel's result array ends at the specification of its arguments (the blocks tile it), the reference's at its last
    stage of arguments that agree, which is the specification too: one function. -/
theorem algebraic : Cert.algebraic_KernelIdeal_ReferenceIdeal := by
  intro m ρ m' ρ' hpre hagree
  have h5 : ∀ (c : Dev Cert.KernelIdeal.nD) (i : Cert.KernelIdeal.S4096x32x128.Idx),
      (m ((c : Thread Cert.KernelIdeal.nD Cert.KernelIdeal.τ).loc Cert.KernelIdeal.main_arg5) i).toNat < 16 :=
    fun c i => Cert.PreDecode.idx_lt _ _ _ _ _ _ (hpre c) i
  refine ⟨fun c => Cert.KernelValue.Garr m c, Cert.KernelValue.run m ρ h5, ?_⟩
  refine (θ_run Cert.ReferenceIdeal.defs _ _).mono (fun _ h c => ⟨(h c).1.trans ?_, (h c).2⟩)
    (Cert.ReferenceIdeal.RunP.run (F := Ideal) m' ρ')
  refine (Cert.ReferenceIdeal.ReadP.val_main_v12_eq _ _ _ _ _ _).trans ?_
  rw [(hagree c).1, (hagree c).2.1, (hagree c).2.2.1, (hagree c).2.2.2.1, (hagree c).2.2.2.2.1, (hagree c).2.2.2.2.2]
  exact Cert.RefValue.ref_eq_G _ _ _ _ _ _ (h5 c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
